-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x128x3 : Shape := ⟨4, ![256, 128, 128, 3]⟩
abbrev S615x16 : Shape := ⟨2, ![615, 16]⟩
abbrev S_ : Shape := ⟨0, ![]⟩

class Facts : Prop where
  bcast_S_S615x16 : S_.BroadcastsInDim S615x16 (![] : Fin 0 → Fin S615x16.rank)
  reducesTo_S615x16_S_d0_1 : S615x16.ReducesTo [0, 1] S_
  h_S_ : 0 < S_.numel

variable [Facts]

def fn {F : FTy → Type} [FloatOps F] (main_arg0 : IVec S256x128x128x3 32) (main_arg1 : FVec F S615x16 .f32) : IVec S_ 1 :=
  let main_v0 : FVec F S615x16 .f32 := Host.absf main_arg1
  let main_cst : FVec F S_ .f32 := constant S_ .f32 0x7F800000#32
  let main_v1 : FVec F S615x16 .f32 := broadcastInDim S615x16 ![] bcast_S_S615x16 main_cst
  let main_v2 : IVec S615x16 1 := cmpf .olt main_v0 main_v1
  let main_c : IVec S_ 1 := constantI S_ 1 1#1
  let main_v3 : IVec S_ 1 := (fun x v => Host.reduce IntOp.andi x v reducesTo_S615x16_S_d0_1 h_S_) main_v2 main_c
  main_v3
-- ==== Kernel.lean ====
abbrev S256x128x128x3 : Shape := ⟨4, ![256, 128, 128, 3]⟩
abbrev S615x16 : Shape := ⟨2, ![615, 16]⟩
abbrev S_ : Shape := ⟨0, ![]⟩
abbrev S3x256x128x128 : Shape := ⟨4, ![3, 256, 128, 128]⟩
abbrev S3x4194304 : Shape := ⟨2, ![3, 4194304]⟩
abbrev S205x16 : Shape := ⟨2, ![205, 16]⟩
abbrev S256x16 : Shape := ⟨2, ![256, 16]⟩
abbrev S768x16 : Shape := ⟨2, ![768, 16]⟩
abbrev S16x768 : Shape := ⟨2, ![16, 768]⟩
abbrev S32x768 : Shape := ⟨2, ![32, 768]⟩
abbrev S256x16x16384 : Shape := ⟨3, ![256, 16, 16384]⟩
abbrev S3x16384 : Shape := ⟨2, ![3, 16384]⟩
abbrev S1x16x16384 : Shape := ⟨3, ![1, 16, 16384]⟩
abbrev S256x4096 : Shape := ⟨2, ![256, 4096]⟩
abbrev S3x4096 : Shape := ⟨2, ![3, 4096]⟩
abbrev S32x4096 : Shape := ⟨2, ![32, 4096]⟩
abbrev S1x4096 : Shape := ⟨2, ![1, 4096]⟩
abbrev S4096 : Shape := ⟨1, ![4096]⟩
abbrev S32x256 : Shape := ⟨2, ![32, 256]⟩
abbrev S16x4096 : Shape := ⟨2, ![16, 4096]⟩
abbrev S16x16384 : Shape := ⟨2, ![16, 16384]⟩
abbrev S256x16x128x128 : Shape := ⟨4, ![256, 16, 128, 128]⟩

abbrev nBuf : Space → Nat
  | .hbm => 36
  | .vmem => 5
  | .smem => 0
  | _ => 0

abbrev bufTy : (tb : Table) → Fin (tcTables nBuf tb) → BufTy
  | .hbm, ⟨0, _⟩ => ⟨S256x128x128x3, .i32⟩
  | .hbm, ⟨1, _⟩ => ⟨S615x16, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S256x128x128x3, .i32⟩
  | .hbm, ⟨6, _⟩ => ⟨S256x128x128x3, .i32⟩
  | .hbm, ⟨7, _⟩ => ⟨S_, .i32⟩
  | .hbm, ⟨8, _⟩ => ⟨S256x128x128x3, .i32⟩
  | .hbm, ⟨9, _⟩ => ⟨S256x128x128x3, .i32⟩
  | .hbm, ⟨10, _⟩ => ⟨S_, .i32⟩
  | .hbm, ⟨11, _⟩ => ⟨S256x128x128x3, .i32⟩
  | .hbm, ⟨12, _⟩ => ⟨S256x128x128x3, .i32⟩
  | .hbm, ⟨13, _⟩ => ⟨S3x256x128x128, .i32⟩
  | .hbm, ⟨14, _⟩ => ⟨S3x4194304, .i32⟩
  | .hbm, ⟨15, _⟩ => ⟨S205x16, .f32⟩
  | .hbm, ⟨16, _⟩ => ⟨S205x16, .f32⟩
  | .hbm, ⟨17, _⟩ => ⟨S205x16, .f32⟩
  | .hbm, ⟨18, _⟩ => ⟨S_, .i32⟩
  | .hbm, ⟨19, _⟩ => ⟨S_, .f32⟩
  | .hbm, ⟨20, _⟩ => ⟨S256x16, .f32⟩
  | .hbm, ⟨21, _⟩ => ⟨S_, .i32⟩
  | .hbm, ⟨22, _⟩ => ⟨S_, .f32⟩
  | .hbm, ⟨23, _⟩ => ⟨S256x16, .f32⟩
  | .hbm, ⟨24, _⟩ => ⟨S_, .i32⟩
  | .hbm, ⟨25, _⟩ => ⟨S_, .f32⟩
  | .hbm, ⟨26, _⟩ => ⟨S256x16, .f32⟩
  | .hbm, ⟨27, _⟩ => ⟨S768x16, .f32⟩
  | .hbm, ⟨28, _⟩ => ⟨S16x768, .f32⟩
  | .hbm, ⟨29, _⟩ => ⟨S16x768, .bf16⟩
  | .hbm, ⟨30, _⟩ => ⟨S16x768, .f32⟩
  | .hbm, ⟨31, _⟩ => ⟨S16x768, .f32⟩
  | .hbm, ⟨32, _⟩ => ⟨S16x768, .bf16⟩
  | .hbm, ⟨33, _⟩ => ⟨S32x768, .bf16⟩
  | .hbm, ⟨34, _⟩ => ⟨S256x16x16384, .f32⟩
  | .hbm, ⟨35, _⟩ => ⟨S256x16x128x128, .f32⟩
  | .local _ .vmem, ⟨0, _⟩ => ⟨S3x16384, .i32⟩
  | .local _ .vmem, ⟨1, _⟩ => ⟨S3x16384, .i32⟩
  | .local _ .vmem, ⟨2, _⟩ => ⟨S32x768, .bf16⟩
  | .local _ .vmem, ⟨3, _⟩ => ⟨S1x16x16384, .f32⟩
  | .local _ .vmem, ⟨4, _⟩ => ⟨S1x16x16384, .f32⟩
  | _, _ => ⟨S256x128x128x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_c_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_call1_v0 : Ref sig .tc := ⟨.hbm, 19, rfl⟩
abbrev main_v8 : Ref sig .tc := ⟨.hbm, 20, rfl⟩
abbrev main_c_3 : Ref sig .tc := ⟨.hbm, 21, rfl⟩
abbrev main_call2_v0 : Ref sig .tc := ⟨.hbm, 22, rfl⟩
abbrev main_v9 : Ref sig .tc := ⟨.hbm, 23, rfl⟩
abbrev main_c_4 : Ref sig .tc := ⟨.hbm, 24, rfl⟩
abbrev main_call3_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![256], ![false]⟩

def k0_mult1 : BitVec 32 :=
  let c0_i32_1 : BitVec 32 := 0#32
  let c4096_i32 : BitVec 32 := 4096#32
  let v3 : BitVec 32 := Scalar.muli c0_i32_1 c4096_i32
  v3
def k0_off1 (c0_i32_1 : BitVec 32) : Fin 2 → Nat :=
  let c0_2 : Index := 0#32
  let c4096_i32 : BitVec 32 := 4096#32
  let v3 : BitVec 32 := Scalar.muli c0_i32_1 c4096_i32
  let v4 : BitVec 32 := v3
  let v5 : Index := Scalar.indexCast v4
  ![0, v5.toNat]
def k0_off2 (c0_i32_1 : BitVec 32) : Fin 2 → Nat :=
  let c0_8 : Index := 0#32
  let c4096_i32 : BitVec 32 := 4096#32
  let v3 : BitVec 32 := Scalar.muli c0_i32_1 c4096_i32
  let v4 : BitVec 32 := v3
  let v47 : Index := Scalar.indexCast v4
  ![0, v47.toNat]
def k0_mult2 : BitVec 32 :=
  let c1_i32 : BitVec 32 := 1#32
  let c4096_i32_9 : BitVec 32 := 4096#32
  let v49 : BitVec 32 := Scalar.muli c1_i32 c4096_i32_9
  v49
def k0_mult3 : BitVec 32 :=
  let c2_i32 : BitVec 32 := 2#32
  let c4096_i32_18 : BitVec 32 := 4096#32
  let v95 : BitVec 32 := Scalar.muli c2_i32 c4096_i32_18
  v95
def k0_mult4 : BitVec 32 :=
  let c3_i32 : BitVec 32 := 3#32
  let c4096_i32_27 : BitVec 32 := 4096#32
  let v141 : BitVec 32 := Scalar.muli c3_i32 c4096_i32_27
  v141
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S256x128x128x3 : S_.BroadcastsInDim S256x128x128x3 (![] : Fin 0 → Fin S256x128x128x3.rank)
  transposes_S256x128x128x3_S3x256x128x128_3_0_1_2 : S256x128x128x3.Transposes [3, 0, 1, 2] S3x256x128x128
  shapeCasts_S3x256x128x128_S3x4194304 : S3x256x128x128.ShapeCasts S3x4194304
  slices_S615x16_S205x16_0_0 : S615x16.Slices ![0, 0] S205x16
  slices_S615x16_S205x16_205_0 : S615x16.Slices ![205, 0] S205x16
  slices_S615x16_S205x16_410_0 : S615x16.Slices ![410, 0] S205x16
  pads_S205x16_S256x16_0510_000 : S205x16.Pads (![0, 0] : Fin 2 → Nat) ![51, 0] ![0, 0] S256x16
  h_S_ : 0 < S_.numel
  concatenates_S256x16_S256x16_S256x16_S768x16_d0 : Shape.Concatenates [S256x16, S256x16, S256x16] S768x16 0
  transposes_S768x16_S16x768_1_0 : S768x16.Transposes [1, 0] S16x768
  bitsLt_bf16_f32 : FTy.bits .bf16 < FTy.bits .f32
  concatenates_S16x768_S16x768_S32x768_d0 : Shape.Concatenates [S16x768, S16x768] S32x768 0
  inb_S32x768_S32x768_0_0 : ∀ a, (![0, 0] : Fin 2 → Nat) a + S32x768.size a ≤ S32x768.size a
  h_S32x768 : 0 < S32x768.numel
  shapeCasts_S32x768_S32x768 : S32x768.ShapeCasts S32x768
  iota_S256x4096_d0_w32 : S256x4096.Iotas .tc 32 [0]
  h_S3x4096 : 0 < S3x4096.numel
  shapeCasts_S3x4096_S3x4096 : S3x4096.ShapeCasts S3x4096
  slices_S3x4096_o0_0_S1x4096 : S3x4096.Slices ![0, 0] S1x4096
  shapeCasts_S1x4096_S4096 : S1x4096.ShapeCasts S4096
  shapeCasts_S4096_S1x4096 : S4096.ShapeCasts S1x4096
  broadcasts_S1x4096_S256x4096 : S1x4096.Broadcasts S256x4096
  natLt_1_32 : 1 < 32
  slices_S32x768_o0_0_S32x256 : S32x768.Slices ![0, 0] S32x256
  slices_S3x4096_o1_0_S1x4096 : S3x4096.Slices ![1, 0] S1x4096
  slices_S32x768_o0_256_S32x256 : S32x768.Slices ![0, 256] S32x256
  slices_S3x4096_o2_0_S1x4096 : S3x4096.Slices ![2, 0] S1x4096
  slices_S32x768_o0_512_S32x256 : S32x768.Slices ![0, 512] S32x256
  slices_S32x4096_o0_0_S16x4096 : S32x4096.Slices ![0, 0] S16x4096
  slices_S32x4096_o16_0_S16x4096 : S32x4096.Slices ![16, 0] S16x4096
  inb_S1x16x16384_S1x16x16384_0_0_0 : ∀ a, (![0, 0, 0] : Fin 3 → Nat) a + S1x16x16384.size a ≤ S1x16x16384.size a
  squeezes_S1x16x16384_S16x16384 : S1x16x16384.Squeezes S16x16384
  h_S16x4096 : 0 < S16x4096.numel
  shapeCasts_S256x16x16384_S256x16x128x128 : S256x16x16384.ShapeCasts S256x16x128x128
  dot_S32x256_S256x4096_S32x4096_1_0_0_1_n_n_wf : DotDims.WF S32x256 S256x4096 S32x4096 [1] [0] [0] [1] [] []
  hrank0 : 0 < grid0.rank
  k0_mult1_dvd : 4096 ∣ k0_mult1.toNat
  k0_off1_inb : ∀ (r : Fin 4), ∀ a, (k0_off1 (BitVec.ofNat 32 r.val)) a + S3x4096.size a ≤ S3x16384.size a
  k0_off2_inb : ∀ (r : Fin 4), ∀ a, (k0_off2 (BitVec.ofNat 32 r.val)) a + S16x4096.size a ≤ S16x16384.size a
  k0_mult2_dvd : 4096 ∣ k0_mult2.toNat
  k0_mult3_dvd : 4096 ∣ k0_mult3.toNat
  k0_mult4_dvd : 4096 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16384.size a ≤ S3x4194304.size a
  hwx0_0 : ∀ i : grid0.Coords, EltTy.bits .i32 = 32 ∨ (Rect.block (s := S3x4194304) S3x16384.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x768.size a ≤ S32x768.size a
  hwx0_1 : ∀ i : grid0.Coords, EltTy.bits .bf16 = 32 ∨ (Rect.block (s := S32x768) S32x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x16384.size a ≤ S256x16x16384.size a
  hwx0_2 : ∀ i : grid0.Coords, EltTy.bits .f32 = 32 ∨ (Rect.block (s := S256x16x16384) S1x16x16384.size (cc0_transform_2 i) (hinb0_2 i)).WholeWords (EltTy.packing .f32)

variable [Facts₀]

def dot_S32x256_S256x4096_S32x4096_1_0_0_1_n_n : DotDims S32x256 S256x4096 S32x4096 where
  lhsContracting := [1]
  rhsContracting := [0]
  lhsNonContracting := [0]
  rhsNonContracting := [1]
  lhsBatch := []
  rhsBatch := []
  wf := dot_S32x256_S256x4096_S32x4096_1_0_0_1_n_n_wf

abbrev win0_0 : Pipeline.Window sig grid0 :=
  Pipeline.Window.ofSpec (Memref.whole main_v4) S3x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S32x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x16x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x128x128x3 : Shape := ⟨4, ![256, 128, 128, 3]⟩
abbrev S615x16 : Shape := ⟨2, ![615, 16]⟩
abbrev S3 : Shape := ⟨1, ![3]⟩
abbrev S_ : Shape := ⟨0, ![]⟩
abbrev S1x1x1x3 : Shape := ⟨4, ![1, 1, 1, 3]⟩
abbrev S256x128x128x3x1 : Shape := ⟨5, ![256, 128, 128, 3, 1]⟩
abbrev S256x128x128x3x16 : Shape := ⟨5, ![256, 128, 128, 3, 16]⟩
abbrev S256x128x128x16 : Shape := ⟨4, ![256, 128, 128, 16]⟩
abbrev S256x16x128x128 : Shape := ⟨4, ![256, 16, 128, 128]⟩

abbrev nBuf : Space → Nat
  | .hbm => 32
  | .vmem => 0
  | .smem => 0
  | _ => 0

abbrev bufTy : (tb : Table) → Fin (tcTables nBuf tb) → BufTy
  | .hbm, ⟨0, _⟩ => ⟨S256x128x128x3, .i32⟩
  | .hbm, ⟨1, _⟩ => ⟨S615x16, .f32⟩
  | .hbm, ⟨2, _⟩ => ⟨S3, .i32⟩
  | .hbm, ⟨3, _⟩ => ⟨S_, .i32⟩
  | .hbm, ⟨4, _⟩ => ⟨S3, .i32⟩
  | .hbm, ⟨5, _⟩ => ⟨S3, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S256x128x128x3, .i32⟩
  | .hbm, ⟨10, _⟩ => ⟨S256x128x128x3, .i32⟩
  | .hbm, ⟨11, _⟩ => ⟨S_, .i32⟩
  | .hbm, ⟨12, _⟩ => ⟨S256x128x128x3, .i32⟩
  | .hbm, ⟨13, _⟩ => ⟨S256x128x128x3, .i32⟩
  | .hbm, ⟨14, _⟩ => ⟨S_, .i32⟩
  | .hbm, ⟨15, _⟩ => ⟨S256x128x128x3, .i32⟩
  | .hbm, ⟨16, _⟩ => ⟨S256x128x128x3, .i32⟩
  | .hbm, ⟨17, _⟩ => ⟨S1x1x1x3, .i32⟩
  | .hbm, ⟨18, _⟩ => ⟨S256x128x128x3, .i32⟩
  | .hbm, ⟨19, _⟩ => ⟨S256x128x128x3, .i32⟩
  | .hbm, ⟨20, _⟩ => ⟨S_, .i32⟩
  | .hbm, ⟨21, _⟩ => ⟨S256x128x128x3, .i32⟩
  | .hbm, ⟨22, _⟩ => ⟨S256x128x128x3, .i1⟩
  | .hbm, ⟨23, _⟩ => ⟨S_, .i32⟩
  | .hbm, ⟨24, _⟩ => ⟨S256x128x128x3, .i32⟩
  | .hbm, ⟨25, _⟩ => ⟨S256x128x128x3, .i32⟩
  | .hbm, ⟨26, _⟩ => ⟨S256x128x128x3, .i32⟩
  | .hbm, ⟨27, _⟩ => ⟨S256x128x128x3x1, .i32⟩
  | .hbm, ⟨28, _⟩ => ⟨S256x128x128x3x16, .f32⟩
  | .hbm, ⟨29, _⟩ => ⟨S_, .f32⟩
  | .hbm, ⟨30, _⟩ => ⟨S256x128x128x16, .f32⟩
  | .hbm, ⟨31, _⟩ => ⟨S256x16x128x128, .f32⟩
  | _, _ => ⟨S256x128x128x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S_S256x128x128x3 : S_.BroadcastsInDim S256x128x128x3 (![] : Fin 0 → Fin S256x128x128x3.rank)
  bcast_S3_S1x1x1x3_3 : S3.BroadcastsInDim S1x1x1x3 (![3] : Fin 1 → Fin S1x1x1x3.rank)
  bcast_S1x1x1x3_S256x128x128x3_0_1_2_3 : S1x1x1x3.BroadcastsInDim S256x128x128x3 (![0, 1, 2, 3] : Fin 4 → Fin S256x128x128x3.rank)
  bcast_S256x128x128x3_S256x128x128x3x1_0_1_2_3 : S256x128x128x3.BroadcastsInDim S256x128x128x3x1 (![0, 1, 2, 3] : Fin 4 → Fin S256x128x128x3x1.rank)
  reducesTo_S256x128x128x3x16_S256x128x128x16_d3 : S256x128x128x3x16.ReducesTo [3] S256x128x128x16
  h_S_ : 0 < S_.numel
  transposes_S256x128x128x16_S256x16x128x128_0_3_1_2 : S256x128x128x16.Transposes [0, 3, 1, 2] S256x16x128x128
  gather_S615x16_S256x128x128x3x1_S256x128x128x3x16_4_0_n_n_0_4_116_wf : GatherDims.WF S615x16 S256x128x128x3x1 S256x128x128x3x16 [4] [0] [] [0] [] 4 ![1, 16]

variable [Facts₀]

def gather_S615x16_S256x128x128x3x1_S256x128x128x3x16_4_0_n_n_0_4_116 : GatherDims S615x16 S256x128x128x3x1 S256x128x128x3x16 where
  offsetDims := [4]
  collapsedSliceDims := [0]
  operandBatchingDims := []
  startIndicesBatchingDims := []
  startIndexMap := [0]
  indexVectorDim := 4
  sliceSizes := ![1, 16]
  wf := gather_S615x16_S256x128x128x3x1_S256x128x128x3x16_4_0_n_n_0_4_116_wf

class Facts : Prop extends Facts₀ where

variable [Facts]
-- ==== Proof.BitsEntry.lean ====
/-
  The program's one kernel region seen from @main: what every device buffer holds when the region is entered
  (the host lines before it folded over the launch memory), that @main is those lines, the region, and one
  closing line; that neither argument array is written on either side of the region; each window's block at
  a grid point read off the array the region finds; and that a run ending with every unscoped buffer at the
  closing line's result of the region's arrays leaves both argument arrays as launched.
-/
import proofs.«419546_j9010841387714_3_alg».proof.Proof.Gen.Kernel.Launch
import proofs.«419546_j9010841387714_3_alg».proof.Proof.Gen.Kernel.Skeleton
import proofs.«419546_j9010841387714_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- The host lines before the region, stretch by stretch. -/
abbrev before : List (List (HloOp τ sig (Elt F))) := [hostOps0, hostOps0_1, hostOps0_2, hostOps0_3, hostOps0_4, hostOps0_5, hostOps0_6, hostOps0_7, hostOps0_8]

/-- Core `c`'s buffer contents when the region is entered: the host lines before it applied to the launch memory. -/
abbrev V0 (c : Dev nD) : Valuation τ sig (Elt F) := StableHlo.after (List.flatten (before (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, and the closing reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The closing line touches only the region's arrays and buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's three arrays: its one result is a buffer of its own. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the closing line, and argument 0 is no array the region writes back: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the closing line, and argument 1 is no array the region writes back: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every grid point, whether the point fetches it or the
    block index has not moved since the last fetch, for any proof data over the entry contents whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every grid point, whether the point fetches it or the
    block index has not moved since the last fetch, for any proof data over the entry contents whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- A run that ends with every buffer the region does not stage at what the closing line leaves of it ends with
    both argument arrays as launched: neither is one of the region's arrays, and no host line writes either. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c)⟩) h

/-! ## The staging memrefs the body is called with -/

/-- One staging buffer of the output window, through which what the body's stores leave is stated. -/
abbrev VO : View sig .tc .vmem S1x16x16384 .f32 := (Memref.whole cc0_stg2_0 : Memref sig .tc .vmem S1x16x16384 .f32).view
/-- Each window's current staging memref at grid point `t`, spelled as the pipeline passes it, and that it is a whole buffer. -/
abbrev ms0 (t : Fin cfg0.N) : Memref sig .tc .vmem S3x16384 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16x16384 .f32 := win0_2.stage (cfg0.slots t 2)
abbrev hs2 (t : Fin cfg0.N) : (ms2 t).IsWhole := hstage0_2 ((cfg0.slots t 2).cast nbuf0_2)

end Cert.Kernel.Frm

end
-- ==== Proof.BitsBody.lean ====
/-
  The kernel body run once, on any three whole staging memrefs: the index rows and the stacked table at their
  contents, the output buffer at anything. The body reads the table, then for each quarter k of the 16384 columns
  reads that quarter of the three index rows and overwrites that quarter of the output, seen as a 16 × 16384 matrix
  (the output block's leading unit axis dropped). The four stores tile the matrix, so what the output buffer ends
  with is one function of the two inputs' contents, whatever it held before.
-/
import proofs.«419546_j9010841387714_3_alg».proof.Proof.BitsEntry

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses and what it stores -/

/-- The table's whole block. -/
abbrev rT : Rect S32x768 := Rect.unit (s := S32x768) ![0, 0] S32x768.size inb_S32x768_S32x768_0_0
/-- Quarter `k` of the three index rows: columns 4096·k … 4096·k + 4095. -/
abbrev rI (k : Fin 4) : Rect S3x16384 := Rect.unit (s := S3x16384) (k0_off1 (BitVec.ofNat 32 k.val)) S3x4096.size (k0_off1_inb k)
/-- The same quarter of the output matrix's columns, all 16 rows. -/
abbrev rO (k : Fin 4) : Rect S16x16384 := Rect.unit (s := S16x16384) (k0_off2 (BitVec.ofNat 32 k.val)) S16x4096.size (k0_off2_inb k)

/-- The row-number matrix every quarter compares its indices with. -/
abbrev rowNo : IVec S256x4096 32 := iota .tc S256x4096 32 [0] iota_S256x4096_d0_w32

/-- The table as the body holds it after its one load. -/
abbrev tbl (x1 : Vec F S32x768 .bf16) : FVec F S32x768 .bf16 := k0_pay2 (View.ld x1 rT)

/-- What the body stores into quarter `k` of the output matrix, from the index rows `x0` and the table `x1`. -/
def quarter (x0 : Vec F S3x16384 .i32) (x1 : Vec F S32x768 .bf16) : Fin 4 → FVec F S16x4096 .f32
  | 0 => k0_pay3 (View.ld x1 rT) (View.ld x0 (rI 0))
  | 1 => k0_pay4 (tbl x1) rowNo (View.ld x0 (rI 1))
  | 2 => k0_pay5 (tbl x1) rowNo (View.ld x0 (rI 2))
  | 3 => k0_pay1 (tbl x1) rowNo (View.ld x0 (rI 3))

/-- The four stores, last first. -/
def stores (x0 : Vec F S3x16384 .i32) (x1 : Vec F S32x768 .bf16) : List (View.Piece (Elt F) S16x16384 .f32) :=
  [⟨rO 3, quarter x0 x1 3⟩, ⟨rO 2, quarter x0 x1 2⟩, ⟨rO 1, quarter x0 x1 1⟩, ⟨rO 0, quarter x0 x1 0⟩]

/-- The four quarters tile the matrix. -/
theorem stores_cover (x0 : Vec F S3x16384 .i32) (x1 : Vec F S32x768 .bf16) (z : S16x16384.Idx) :
    ∃ pc ∈ stores x0 x1, z ∈ pc.1.set :=
  View.cover_of_tiled (stores x0 x1) S16x4096.size (by rfl) z

/-- An index of the 1 × 16 × 16384 block as the index of the 16 × 16384 matrix with the same row-major position. -/
abbrev dropUnit (y : S1x16x16384.Idx) : S16x16384.Idx :=
  (Shape.reshapeEquiv (s := (Rect.unit (s := S1x16x16384) ![0, 0, 0] S1x16x16384.size inb_S1x16x16384_S1x16x16384_0_0_0).shape)
    squeezes_S1x16x16384_S16x16384.numel_eq).symm y

/-- What the output's staging buffer holds after the body: at each index, the quarter that holds its column. -/
def outBuf (x0 : Vec F S3x16384 .i32) (x1 : Vec F S32x768 .bf16) : Vec F S1x16x16384 .f32 :=
  fun y => View.canon (stores x0 x1) (dropUnit y)

/-- The matrix view of the output's staging memref through which the body stores. -/
abbrev sqm (arg3 : Memref sig .tc .vmem S1x16x16384 .f32) : Memref sig .tc .vmem S16x16384 .f32 :=
  (arg3.slice (Rect.unit (s := S1x16x16384) ![0, 0, 0] S1x16x16384.size inb_S1x16x16384_S1x16x16384_0_0_0) (fun _ => rfl)).squeeze S16x16384 squeezes_S1x16x16384_S16x16384

/-- Reading the block through the memref is reading the matrix through its view at the matching index: both views
    place that index on the same element of the buffer. -/
theorem read_through_squeeze (arg3 : Memref sig .tc .vmem S1x16x16384 .f32) (g : arg3.view.ty.Contents (Elt F)) (y : S1x16x16384.Idx) :
    arg3.view.read (Elt F) g y = (sqm arg3).view.read (Elt F) g (dropUnit y) := by
  have he : (sqm arg3).view.emb (dropUnit y) = arg3.view.emb y := by
    simp only [sqm, dropUnit, Memref.view_squeeze, Memref.view_slice, View.emb_reshape, View.emb_slice,
      Function.Embedding.trans_apply, Equiv.coe_toEmbedding, Equiv.apply_symm_apply]
    congr 1
    funext a; apply Fin.ext
    rw [Rect.emb_apply]
    have h0 : ∀ a : Fin 3, (![0, 0, 0] : Fin 3 → ℕ) a = 0 := by decide
    show (![0, 0, 0] : Fin 3 → ℕ) a + 1 * (y a).val = (y a).val
    rw [h0]; omega
  rw [View.read_apply, View.read_apply, he]

/-! ## The body's triple -/

set_option maxHeartbeats 1000000 in
/-- From the inputs' buffers at `x0`, `x1` and the output's at anything, the body runs to a continuation that is handed
    the inputs' buffers unchanged and the output's at `outBuf x0 x1`. -/
theorem sound_kernel (c : Dev nD) (E : Set ℕ) (i : grid0.Coords) (arg1 : Memref sig .tc .vmem S3x16384 .i32) (harg1 : arg1.IsWhole)
    (arg2 : Memref sig .tc .vmem S32x768 .bf16) (harg2 : arg2.IsWhole) (arg3 : Memref sig .tc .vmem S1x16x16384 .f32) (harg3 : arg3.IsWhole)
    (x0 : Vec F S3x16384 .i32) (x1 : Vec F S32x768 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBuf x0 x1)) -∗ K ⟨⟩))
      ⊢ wp frame (wpE (defs₀ (F := F)) Variants.none c none) E (cc0_rpe_kernel i arg1 harg1 arg2 harg2 arg3 harg3) K := by
  simp only [cc0_rpe_kernel_eq_skeleton]; unfold cc0_rpe_kernel_skel
  simp only [k0_part1_eq_skeleton, k0_part2_eq_skeleton, k0_part3_eq_skeleton]
  unfold owns
  rw [harg3.set_eq_univ]
  iintro ⟨⟨%f0, %hf0, H0⟩, ⟨%f1, %hf1, H1⟩, ⟨%d2, %f2, -, H2⟩, Hk⟩
  obtain rfl := harg1.eq_unread hf0
  obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  funext y
  rw [read_through_squeeze]
  sl_unfold_words
  simp only [View.readAt_eq_ld, harg1.read_unread, harg2.read_unread]
  exact View.read_writes_apply_eq_canon (sqm arg3).view f2 (dropUnit y) (stores x0 x1) (stores_cover x0 x1 _)

end Cert.Kernel.Frm

end
-- ==== Proof.BitsFrame.lean ====
/-
  The kernel region's proof data and its run. After the body at grid point t the two inputs' staging buffers still
  hold their blocks (rows 0…2 of the index array at columns 16384·t …, and the whole stacked table), and the
  output's holds the body's four quarters of those blocks; the body meets the pipeline's obligation at every point;
  so every weakly fair execution of @main terminates with each array of the region at what the pipeline writes back
  and every other buffer at what the closing reshape leaves of it, and in particular with both argument arrays as
  launched.
-/
import proofs.«419546_j9010841387714_3_alg».proof.Proof.BitsBody

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and
    the output's at the body's result of the two blocks; nothing else of the core's state is used or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBuf (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBuf (iblk m c 0 t) (iblk m c 1 t) := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the rest of the
    core's state passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, in a state with every array of the region at what the proof
    data say is written back and every other unscoped buffer at what the closing line leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Frm

end
-- ==== Proof.IdealEntry.lean ====
/-
  The program's one kernel region seen from @main: what every device buffer holds when the region is entered
  (the host lines before it folded over the launch memory), that @main is those lines, the region, and one
  closing line; that neither argument array is written on either side of the region; each window's block at
  a grid point read off the array the region finds; and that a run ending with every unscoped buffer at the
  closing line's result of the region's arrays leaves both argument arrays as launched.
-/
import proofs.«419546_j9010841387714_3_alg».proof.Proof.Gen.KernelIdeal.Launch
import proofs.«419546_j9010841387714_3_alg».proof.Proof.Gen.KernelIdeal.Skeleton
import proofs.«419546_j9010841387714_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- The host lines before the region, stretch by stretch. -/
abbrev before : List (List (HloOp τ sig (Elt F))) := [hostOps0, hostOps0_1, hostOps0_2, hostOps0_3, hostOps0_4, hostOps0_5, hostOps0_6, hostOps0_7, hostOps0_8]

/-- Core `c`'s buffer contents when the region is entered: the host lines before it applied to the launch memory. -/
abbrev V0 (c : Dev nD) : Valuation τ sig (Elt F) := StableHlo.after (List.flatten (before (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, and the closing reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The closing line touches only the region's arrays and buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's three arrays: its one result is a buffer of its own. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the closing line, and argument 0 is no array the region writes back: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the closing line, and argument 1 is no array the region writes back: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every grid point, whether the point fetches it or the
    block index has not moved since the last fetch, for any proof data over the entry contents whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every grid point, whether the point fetches it or the
    block index has not moved since the last fetch, for any proof data over the entry contents whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- A run that ends with every buffer the region does not stage at what the closing line leaves of it ends with
    both argument arrays as launched: neither is one of the region's arrays, and no host line writes either. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c)⟩) h

/-! ## The staging memrefs the body is called with -/

/-- One staging buffer of the output window, through which what the body's stores leave is stated. -/
abbrev VO : View sig .tc .vmem S1x16x16384 .f32 := (Memref.whole cc0_stg2_0 : Memref sig .tc .vmem S1x16x16384 .f32).view
/-- Each window's current staging memref at grid point `t`, spelled as the pipeline passes it, and that it is a whole buffer. -/
abbrev ms0 (t : Fin cfg0.N) : Memref sig .tc .vmem S3x16384 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16x16384 .f32 := win0_2.stage (cfg0.slots t 2)
abbrev hs2 (t : Fin cfg0.N) : (ms2 t).IsWhole := hstage0_2 ((cfg0.slots t 2).cast nbuf0_2)

end Cert.KernelIdeal.Frm

end
-- ==== Proof.IdealBody.lean ====
/-
  The kernel body run once, on any three whole staging memrefs: the index rows and the stacked table at their
  contents, the output buffer at anything. The body reads the table, then for each quarter k of the 16384 columns
  reads that quarter of the three index rows and overwrites that quarter of the output, seen as a 16 × 16384 matrix
  (the output block's leading unit axis dropped). The four stores tile the matrix, so what the output buffer ends
  with is one function of the two inputs' contents, whatever it held before.
-/
import proofs.«419546_j9010841387714_3_alg».proof.Proof.IdealEntry

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses and what it stores -/

/-- The table's whole block. -/
abbrev rT : Rect S32x768 := Rect.unit (s := S32x768) ![0, 0] S32x768.size inb_S32x768_S32x768_0_0
/-- Quarter `k` of the three index rows: columns 4096·k … 4096·k + 4095. -/
abbrev rI (k : Fin 4) : Rect S3x16384 := Rect.unit (s := S3x16384) (k0_off1 (BitVec.ofNat 32 k.val)) S3x4096.size (k0_off1_inb k)
/-- The same quarter of the output matrix's columns, all 16 rows. -/
abbrev rO (k : Fin 4) : Rect S16x16384 := Rect.unit (s := S16x16384) (k0_off2 (BitVec.ofNat 32 k.val)) S16x4096.size (k0_off2_inb k)

/-- The row-number matrix every quarter compares its indices with. -/
abbrev rowNo : IVec S256x4096 32 := iota .tc S256x4096 32 [0] iota_S256x4096_d0_w32

/-- The table as the body holds it after its one load. -/
abbrev tbl (x1 : Vec F S32x768 .bf16) : FVec F S32x768 .bf16 := k0_pay2 (View.ld x1 rT)

/-- What the body stores into quarter `k` of the output matrix, from the index rows `x0` and the table `x1`. -/
def quarter (x0 : Vec F S3x16384 .i32) (x1 : Vec F S32x768 .bf16) : Fin 4 → FVec F S16x4096 .f32
  | 0 => k0_pay3 (View.ld x1 rT) (View.ld x0 (rI 0))
  | 1 => k0_pay4 (tbl x1) rowNo (View.ld x0 (rI 1))
  | 2 => k0_pay5 (tbl x1) rowNo (View.ld x0 (rI 2))
  | 3 => k0_pay1 (tbl x1) rowNo (View.ld x0 (rI 3))

/-- The four stores, last first. -/
def stores (x0 : Vec F S3x16384 .i32) (x1 : Vec F S32x768 .bf16) : List (View.Piece (Elt F) S16x16384 .f32) :=
  [⟨rO 3, quarter x0 x1 3⟩, ⟨rO 2, quarter x0 x1 2⟩, ⟨rO 1, quarter x0 x1 1⟩, ⟨rO 0, quarter x0 x1 0⟩]

/-- The four quarters tile the matrix. -/
theorem stores_cover (x0 : Vec F S3x16384 .i32) (x1 : Vec F S32x768 .bf16) (z : S16x16384.Idx) :
    ∃ pc ∈ stores x0 x1, z ∈ pc.1.set :=
  View.cover_of_tiled (stores x0 x1) S16x4096.size (by rfl) z

/-- An index of the 1 × 16 × 16384 block as the index of the 16 × 16384 matrix with the same row-major position. -/
abbrev dropUnit (y : S1x16x16384.Idx) : S16x16384.Idx :=
  (Shape.reshapeEquiv (s := (Rect.unit (s := S1x16x16384) ![0, 0, 0] S1x16x16384.size inb_S1x16x16384_S1x16x16384_0_0_0).shape)
    squeezes_S1x16x16384_S16x16384.numel_eq).symm y

/-- What the output's staging buffer holds after the body: at each index, the quarter that holds its column. -/
def outBuf (x0 : Vec F S3x16384 .i32) (x1 : Vec F S32x768 .bf16) : Vec F S1x16x16384 .f32 :=
  fun y => View.canon (stores x0 x1) (dropUnit y)

/-- The matrix view of the output's staging memref through which the body stores. -/
abbrev sqm (arg3 : Memref sig .tc .vmem S1x16x16384 .f32) : Memref sig .tc .vmem S16x16384 .f32 :=
  (arg3.slice (Rect.unit (s := S1x16x16384) ![0, 0, 0] S1x16x16384.size inb_S1x16x16384_S1x16x16384_0_0_0) (fun _ => rfl)).squeeze S16x16384 squeezes_S1x16x16384_S16x16384

/-- Reading the block through the memref is reading the matrix through its view at the matching index: both views
    place that index on the same element of the buffer. -/
theorem read_through_squeeze (arg3 : Memref sig .tc .vmem S1x16x16384 .f32) (g : arg3.view.ty.Contents (Elt F)) (y : S1x16x16384.Idx) :
    arg3.view.read (Elt F) g y = (sqm arg3).view.read (Elt F) g (dropUnit y) := by
  have he : (sqm arg3).view.emb (dropUnit y) = arg3.view.emb y := by
    simp only [sqm, dropUnit, Memref.view_squeeze, Memref.view_slice, View.emb_reshape, View.emb_slice,
      Function.Embedding.trans_apply, Equiv.coe_toEmbedding, Equiv.apply_symm_apply]
    congr 1
    funext a; apply Fin.ext
    rw [Rect.emb_apply]
    have h0 : ∀ a : Fin 3, (![0, 0, 0] : Fin 3 → ℕ) a = 0 := by decide
    show (![0, 0, 0] : Fin 3 → ℕ) a + 1 * (y a).val = (y a).val
    rw [h0]; omega
  rw [View.read_apply, View.read_apply, he]

/-! ## The body's triple -/

set_option maxHeartbeats 1000000 in
/-- From the inputs' buffers at `x0`, `x1` and the output's at anything, the body runs to a continuation that is handed
    the inputs' buffers unchanged and the output's at `outBuf x0 x1`. -/
theorem sound_kernel (c : Dev nD) (E : Set ℕ) (i : grid0.Coords) (arg1 : Memref sig .tc .vmem S3x16384 .i32) (harg1 : arg1.IsWhole)
    (arg2 : Memref sig .tc .vmem S32x768 .bf16) (harg2 : arg2.IsWhole) (arg3 : Memref sig .tc .vmem S1x16x16384 .f32) (harg3 : arg3.IsWhole)
    (x0 : Vec F S3x16384 .i32) (x1 : Vec F S32x768 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBuf x0 x1)) -∗ K ⟨⟩))
      ⊢ wp frame (wpE (defs₀ (F := F)) Variants.none c none) E (cc0_rpe_kernel i arg1 harg1 arg2 harg2 arg3 harg3) K := by
  simp only [cc0_rpe_kernel_eq_skeleton]; unfold cc0_rpe_kernel_skel
  simp only [k0_part1_eq_skeleton, k0_part2_eq_skeleton, k0_part3_eq_skeleton]
  unfold owns
  rw [harg3.set_eq_univ]
  iintro ⟨⟨%f0, %hf0, H0⟩, ⟨%f1, %hf1, H1⟩, ⟨%d2, %f2, -, H2⟩, Hk⟩
  obtain rfl := harg1.eq_unread hf0
  obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  funext y
  rw [read_through_squeeze]
  sl_unfold_words
  simp only [View.readAt_eq_ld, harg1.read_unread, harg2.read_unread]
  exact View.read_writes_apply_eq_canon (sqm arg3).view f2 (dropUnit y) (stores x0 x1) (stores_cover x0 x1 _)

end Cert.KernelIdeal.Frm

end
-- ==== Proof.IdealFrame.lean ====
/-
  The kernel region's proof data and its run. After the body at grid point t the two inputs' staging buffers still
  hold their blocks (rows 0…2 of the index array at columns 16384·t …, and the whole stacked table), and the
  output's holds the body's four quarters of those blocks; the body meets the pipeline's obligation at every point;
  so every weakly fair execution of @main terminates with each array of the region at what the pipeline writes back
  and every other buffer at what the closing reshape leaves of it, and in particular with both argument arrays as
  launched.
-/
import proofs.«419546_j9010841387714_3_alg».proof.Proof.IdealBody

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and
    the output's at the body's result of the two blocks; nothing else of the core's state is used or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBuf (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBuf (iblk m c 0 t) (iblk m c 1 t) := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the rest of the
    core's state passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, in a state with every array of the region at what the proof
    data say is written back and every other unscoped buffer at what the closing line leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Frm

end
-- ==== Proof.Lookup.lean ====
/-
  The function both programs compute. A coordinate word x is clipped to [-102, 102] (as a signed number) and
  shifted by 102, which leaves a word in [0, 204]; axis a ∈ {0, 1, 2} of a position reads row 205·a + that word of
  the 615-row table; and the entry of the result at batch b, head h, position (p, q) is the sum over the three
  axes of the table at that row and column h.
-/
import Idealize.ShloMosaic.PureOps.Ideal
import Idealize.ShloMosaic.Lib.ValueIdx

noncomputable section

namespace Cert.Lookup

open Idealize.ShloMosaic Idealize.ShloMosaic.ValueIdx

/-- The coordinate word clipped to [-102, 102] and shifted by 102 (the word -102 is 4294967194). -/
def shift (x : BitVec 32) : BitVec 32 := IntOp.addi (IntOp.minsi 102#32 (IntOp.maxsi 4294967194#32 x)) 102#32

/-- The clipped value of a word, as an integer. -/
theorem clip_toInt (x : BitVec 32) :
    (IntOp.minsi 102#32 (IntOp.maxsi 4294967194#32 x)).toInt = max (-102) (min 102 x.toInt) := by
  unfold IntOp.minsi IntOp.maxsi
  have h1 : (4294967194#32 : BitVec 32).toInt = -102 := by decide
  have h2 : (102#32 : BitVec 32).toInt = 102 := by decide
  by_cases ha : x.slt 4294967194#32
  · rw [if_pos ha]
    have : (102#32 : BitVec 32).slt 4294967194#32 = false := by decide
    rw [this]; simp only [Bool.false_eq_true, if_false]
    rw [BitVec.slt_iff_toInt_lt, h1] at ha
    rw [h1]; omega
  · rw [if_neg ha]
    rw [BitVec.slt_iff_toInt_lt, h1] at ha
    by_cases hb : (102#32 : BitVec 32).slt x
    · rw [if_pos hb]; rw [BitVec.slt_iff_toInt_lt, h2] at hb; rw [h2]; omega
    · rw [if_neg hb]; rw [BitVec.slt_iff_toInt_lt, h2] at hb; omega

/-- The shifted word is the clipped integer plus 102, a number between 0 and 204. -/
theorem shift_toNat (x : BitVec 32) : ((shift x).toNat : Int) = max (-102) (min 102 x.toInt) + 102 := by
  unfold shift IntOp.addi
  have hc := clip_toInt x
  generalize IntOp.minsi 102#32 (IntOp.maxsi 4294967194#32 x) = y at hc
  have hy : -102 ≤ y.toInt ∧ y.toInt ≤ 102 := by rw [hc]; omega
  rw [← hc]
  rw [BitVec.toNat_add]
  have h102 : (102#32 : BitVec 32).toNat = 102 := by decide
  rw [h102]
  have := BitVec.toInt_eq_toNat_cond y
  have hlt := y.isLt
  split at this <;> omega

theorem shift_le (x : BitVec 32) : (shift x).toNat ≤ 204 := by
  have := shift_toNat x; omega

/-- The table row axis `a` reads for the coordinate word `x`. -/
def tabRow (a : Fin 3) (x : BitVec 32) : Fin 615 := ⟨205 * a.val + (shift x).toNat, by have := shift_le x; have := a.isLt; omega⟩

/-- One entry of the result: the sum over the three axes of the table at that axis's row, column `h`. -/
def entry (xyz : IVec ⟨4, ![256, 128, 128, 3]⟩ 32) (tab : FVec Ideal ⟨2, ![615, 16]⟩ .f32)
    (b : Fin 256) (h : Fin 16) (p q : Fin 128) : EReal :=
  ∑ a : Fin 3, tab (ix2 (tabRow a (xyz (ix4 b p q a))) h)

/-- The whole result, index by index. -/
def G (xyz : IVec ⟨4, ![256, 128, 128, 3]⟩ 32) (tab : FVec Ideal ⟨2, ![615, 16]⟩ .f32) :
    FVec Ideal ⟨4, ![256, 16, 128, 128]⟩ .f32 :=
  fun i => entry xyz tab (i 0) (i 1) (i 2) (i 3)

theorem G_apply (xyz : IVec ⟨4, ![256, 128, 128, 3]⟩ 32) (tab : FVec Ideal ⟨2, ![615, 16]⟩ .f32)
    (b : Fin 256) (h : Fin 16) (p q : Fin 128) : G xyz tab (ix4 b h p q) = entry xyz tab b h p q := rfl

end Cert.Lookup

end
-- ==== Proof.IdealHost.lean ====
/-
  The two arrays the region reads, as functions of @main's arguments. The index array has three rows, one per axis,
  and one column per (batch, position): column 16384·b + 128·p + q of row a holds the clipped and shifted coordinate
  a of position (p, q) of batch b. The stacked table has 32 rows of 768 columns: in rows 0…15, column 256·a + r
  holds the table's row 205·a + r at that head for r < 205 and zero for the padding 205 ≤ r < 256; rows 16…31 hold
  the difference of a real number with itself, zero.
-/
import proofs.«419546_j9010841387714_3_alg».proof.Proof.IdealEntry
import proofs.«419546_j9010841387714_3_alg».proof.Proof.Lookup
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The operations before the region that write the index array, composed: clip to [−102, 102], add 102, move the
    axis in front, flatten the (batch, row, column) axes. -/
theorem idx_term (c : Dev nD) :
    (V m c main_v4 : S3x4194304.Idx → BitVec 32) =
      shapeCast S3x4194304 (transpose S3x256x128x128 [3, 0, 1, 2]
        (addi (minsi (broadcastInDim S256x128x128x3 ![] bcast_S_S256x128x128x3 (constantI S_ 32 102#32))
                (maxsi (broadcastInDim S256x128x128x3 ![] bcast_S_S256x128x128x3 (constantI S_ 32 4294967194#32))
                  (m ((c : Thread nD τ).loc main_arg0) : IVec S256x128x128x3 32)))
          (broadcastInDim S256x128x128x3 ![] bcast_S_S256x128x128x3 (constantI S_ 32 102#32)))
        transposes_S256x128x128x3_S3x256x128x128_3_0_1_2) shapeCasts_S3x256x128x128_S3x4194304 := by
  dsimp only [V, V0, before]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The composition read at row `a`, column `n`: the flattening sends column n to batch n / 16384, row n / 128 mod 128
    and column n mod 128; the transposition puts the axis back last; the rest acts entry by entry. -/
theorem idx_at (xyz : IVec S256x128x128x3 32) (a : Fin 3) (n : Fin 4194304) :
    shapeCast S3x4194304 (transpose S3x256x128x128 [3, 0, 1, 2]
        (addi (minsi (broadcastInDim S256x128x128x3 ![] bcast_S_S256x128x128x3 (constantI S_ 32 102#32))
                (maxsi (broadcastInDim S256x128x128x3 ![] bcast_S_S256x128x128x3 (constantI S_ 32 4294967194#32)) xyz))
          (broadcastInDim S256x128x128x3 ![] bcast_S_S256x128x128x3 (constantI S_ 32 102#32)))
        transposes_S256x128x128x3_S3x256x128x128_3_0_1_2) shapeCasts_S3x256x128x128_S3x4194304 (ix2 a n)
      = Cert.Lookup.shift (xyz (ix4
          (⟨n.val / 16384 % 256, Nat.mod_lt _ (by norm_num)⟩ : Fin 256) (⟨n.val / 128 % 128, Nat.mod_lt _ (by norm_num)⟩ : Fin 128)
          (⟨n.val % 128, Nat.mod_lt _ (by norm_num)⟩ : Fin 128) (⟨a.val % 3, Nat.mod_lt _ (by norm_num)⟩ : Fin 3))) := by
  have hn := n.isLt
  have ha := a.isLt
  refine (shapeCast_apply _ shapeCasts_S3x256x128x128_S3x4194304 (ix2 a n)
    (ix4 (⟨a.val % 3, Nat.mod_lt _ (by norm_num)⟩ : Fin 3) (⟨n.val / 16384 % 256, Nat.mod_lt _ (by norm_num)⟩ : Fin 256)
      (⟨n.val / 128 % 128, Nat.mod_lt _ (by norm_num)⟩ : Fin 128) (⟨n.val % 128, Nat.mod_lt _ (by norm_num)⟩ : Fin 128)) ?_).trans ?_
  · rw [Shape.rowMajor_val_two, Shape.rowMajor_val_four]
    show ((a.val % 3 * 256 + n.val / 16384 % 256) * 128 + n.val / 128 % 128) * 128 + n.val % 128 = a.val * 4194304 + n.val
    omega
  refine (transpose_apply _ _ transposes_S256x128x128x3_S3x256x128x128_3_0_1_2 _
    (ix4 (⟨n.val / 16384 % 256, Nat.mod_lt _ (by norm_num)⟩ : Fin 256) (⟨n.val / 128 % 128, Nat.mod_lt _ (by norm_num)⟩ : Fin 128)
      (⟨n.val % 128, Nat.mod_lt _ (by norm_num)⟩ : Fin 128) (⟨a.val % 3, Nat.mod_lt _ (by norm_num)⟩ : Fin 3))
    (fun b => match b with | ⟨0, _⟩ => rfl | ⟨1, _⟩ => rfl | ⟨2, _⟩ => rfl | ⟨3, _⟩ => rfl)).trans ?_
  rfl

/-- The index array: row `a`, column 16384·b + 128·p + q holds the shifted coordinate `a` of position (p, q) of batch `b`. -/
def idxArr (xyz : IVec S256x128x128x3 32) : IVec S3x4194304 32 :=
  fun j => Cert.Lookup.shift (xyz (ix4
    (⟨(j 1).val / 16384 % 256, Nat.mod_lt _ (by norm_num)⟩ : Fin 256) (⟨(j 1).val / 128 % 128, Nat.mod_lt _ (by norm_num)⟩ : Fin 128)
    (⟨(j 1).val % 128, Nat.mod_lt _ (by norm_num)⟩ : Fin 128) (⟨(j 0).val % 3, Nat.mod_lt _ (by norm_num)⟩ : Fin 3)))

/-- The index array the region finds is `idxArr` of the launched coordinates, at any float instance. -/
theorem entry_idx (c : Dev nD) :
    (V m c main_v4 : S3x4194304.Idx → BitVec 32) = idxArr (m ((c : Thread nD τ).loc main_arg0)) := by
  rw [idx_term]
  funext j
  rw [eq_ix2 j]
  exact idx_at _ (j 0) (j 1)

/-- The stack of a real matrix over its low half: rows 0…15 are the matrix, rows 16…31 are the difference of each
    entry with itself, zero. -/
theorem stack_of (P : FVec Ideal S16x768 .f32) (hP : ∀ i, ∃ x : ℝ, P i = (x : EReal)) (r : Fin 32) (k : Fin 768) :
    concatenate S32x768 0 [⟨S16x768, (truncf .bf16 P bitsLt_bf16_f32 : FVec Ideal S16x768 .bf16)⟩,
        ⟨S16x768, (truncf .bf16 (subf P (extf .f32 (truncf .bf16 P bitsLt_bf16_f32 : FVec Ideal S16x768 .bf16) bitsLt_bf16_f32)) bitsLt_bf16_f32 : FVec Ideal S16x768 .bf16)⟩]
        concatenates_S16x768_S16x768_S32x768_d0 (ix2 r k)
      = if r.val < 16 then P (ix2 (⟨r.val % 16, Nat.mod_lt _ (by norm_num)⟩ : Fin 16) k) else 0 := by
  have hr32 := r.isLt
  by_cases hr : r.val < 16
  · rw [if_pos hr]
    refine (concatenate_apply_piece (0 : Fin 2) _ _ (ix2 r k) 0 (by simp) S16x768 _ rfl rfl 0 rfl
      (ix2 (⟨r.val % 16, Nat.mod_lt _ (by norm_num)⟩ : Fin 16) k) ?_ ?_).trans ?_
    · intro b hb
      match b with
      | ⟨0, _⟩ => exact absurd rfl hb
      | ⟨1, _⟩ => rfl
    · show 0 + r.val % 16 = r.val; omega
    · rfl
  · rw [if_neg hr]
    refine (concatenate_apply_piece (0 : Fin 2) _ _ (ix2 r k) 1 (by simp) S16x768 _ rfl rfl 16 rfl
      (ix2 (⟨r.val - 16, by omega⟩ : Fin 16) k) ?_ ?_).trans ?_
    · intro b hb
      match b with
      | ⟨0, _⟩ => exact absurd rfl hb
      | ⟨1, _⟩ => rfl
    · show 16 + (r.val - 16) = r.val; omega
    · obtain ⟨x, hx⟩ := hP (ix2 (⟨r.val - 16, by omega⟩ : Fin 16) k)
      show P _ - P _ = 0
      rw [hx, ← EReal.coe_sub, sub_self, EReal.coe_zero]

/-- A block of 205 rows of the table from row `off`, with 51 rows of the padding value below it, read at row `r`,
    column `p`: the table's row `off + r` while r < 205, the padding value below. -/
theorem pad_slice_at (tab : FVec Ideal S615x16 .f32) (z : FVec Ideal S_ .f32) (off : Nat)
    (h : S615x16.Slices ![off, 0] S205x16) (hoff : off + 205 ≤ 615) (r : Fin 256) (p : Fin 16) :
    pad S256x16 ![0, 0] ![51, 0] ![0, 0] (extractStridedSlice S205x16 ![off, 0] tab h) z
        pads_S205x16_S256x16_0510_000 h_S_ (ix2 r p)
      = if r.val < 205 then tab (ix2 (⟨(off + r.val) % 615, Nat.mod_lt _ (by norm_num)⟩ : Fin 615) p)
        else z (Shape.Idx.first h_S_) := by
  by_cases hr : r.val < 205
  · rw [if_pos hr]
    refine (pad_apply_of_inside _ _ _ _ z pads_S205x16_S256x16_0510_000 h_S_ (ix2 r p)
      (ix2 (⟨r.val, hr⟩ : Fin 205) p) ?_).trans ?_
    · intro a
      match a with
      | ⟨0, _⟩ => show r.val = 0 + r.val * (0 + 1); omega
      | ⟨1, _⟩ => show p.val = 0 + p.val * (0 + 1); omega
    · refine extractStridedSlice_apply _ tab h _ _ ?_
      intro a
      match a with
      | ⟨0, _⟩ => show (off + r.val) % 615 = off + r.val; omega
      | ⟨1, _⟩ => show p.val = 0 + p.val; omega
  · rw [if_neg hr]
    refine pad_apply_of_not_inside _ _ _ _ z pads_S205x16_S256x16_0510_000 h_S_ (ix2 r p) (0 : Fin 2) ?_
    show ¬(0 ≤ r.val ∧ (r.val - 0) % (0 + 1) = 0 ∧ (r.val - 0) / (0 + 1) < 205)
    omega

/-- Three blocks of 256 rows stacked and transposed, read at row `p`, column `q`: block q / 256 at its row q mod 256. -/
theorem stack3_at (x0 x1 x2 : FVec Ideal S256x16 .f32) (p : Fin 16) (q : Fin 768) :
    transpose S16x768 [1, 0]
        (concatenate S768x16 0 [⟨S256x16, x0⟩, ⟨S256x16, x1⟩, ⟨S256x16, x2⟩] concatenates_S256x16_S256x16_S256x16_S768x16_d0)
        transposes_S768x16_S16x768_1_0 (ix2 p q)
      = if q.val < 256 then x0 (ix2 (⟨q.val % 256, Nat.mod_lt _ (by norm_num)⟩ : Fin 256) p)
        else if q.val < 512 then x1 (ix2 (⟨q.val % 256, Nat.mod_lt _ (by norm_num)⟩ : Fin 256) p)
        else x2 (ix2 (⟨q.val % 256, Nat.mod_lt _ (by norm_num)⟩ : Fin 256) p) := by
  have hq := q.isLt
  refine (transpose_apply _ _ transposes_S768x16_S16x768_1_0 (ix2 p q) (ix2 q p)
    (fun b => match b with | ⟨0, _⟩ => rfl | ⟨1, _⟩ => rfl)).trans ?_
  by_cases h0 : q.val < 256
  · rw [if_pos h0]
    refine concatenate_apply_piece (0 : Fin 2) [⟨S256x16, x0⟩, ⟨S256x16, x1⟩, ⟨S256x16, x2⟩] _ (ix2 q p) 0 (by simp) S256x16 x0 rfl rfl 0 rfl
      (ix2 (⟨q.val % 256, Nat.mod_lt _ (by norm_num)⟩ : Fin 256) p) ?_ ?_
    · intro b hb
      match b with
      | ⟨0, _⟩ => exact absurd rfl hb
      | ⟨1, _⟩ => rfl
    · show 0 + q.val % 256 = q.val; omega
  · rw [if_neg h0]
    by_cases h1 : q.val < 512
    · rw [if_pos h1]
      refine concatenate_apply_piece (0 : Fin 2) [⟨S256x16, x0⟩, ⟨S256x16, x1⟩, ⟨S256x16, x2⟩] _ (ix2 q p) 1 (by simp) S256x16 x1 rfl rfl 256 rfl
        (ix2 (⟨q.val % 256, Nat.mod_lt _ (by norm_num)⟩ : Fin 256) p) ?_ ?_
      · intro b hb
        match b with
        | ⟨0, _⟩ => exact absurd rfl hb
        | ⟨1, _⟩ => rfl
      · show 256 + q.val % 256 = q.val; omega
    · rw [if_neg h1]
      refine concatenate_apply_piece (0 : Fin 2) [⟨S256x16, x0⟩, ⟨S256x16, x1⟩, ⟨S256x16, x2⟩] _ (ix2 q p) 2 (by simp) S256x16 x2 rfl rfl 512 rfl
        (ix2 (⟨q.val % 256, Nat.mod_lt _ (by norm_num)⟩ : Fin 256) p) ?_ ?_
      · intro b hb
        match b with
        | ⟨0, _⟩ => exact absurd rfl hb
        | ⟨1, _⟩ => rfl
      · show 512 + q.val % 256 = q.val; omega

/-- The three padded blocks of the table stacked and transposed, read at row `p`, column `q`: row 205·(q / 256) + q mod 256
    of the table while q mod 256 < 205, the padding value otherwise. -/
theorem padded_at (tab : FVec Ideal S615x16 .f32) (z : FVec Ideal S_ .f32) (p : Fin 16) (q : Fin 768) :
    (transpose S16x768 [1, 0]
      (concatenate S768x16 0
        [⟨S256x16, pad S256x16 ![0, 0] ![51, 0] ![0, 0] (extractStridedSlice S205x16 ![0, 0] tab slices_S615x16_S205x16_0_0)
            z pads_S205x16_S256x16_0510_000 h_S_⟩,
         ⟨S256x16, pad S256x16 ![0, 0] ![51, 0] ![0, 0] (extractStridedSlice S205x16 ![205, 0] tab slices_S615x16_S205x16_205_0)
            z pads_S205x16_S256x16_0510_000 h_S_⟩,
         ⟨S256x16, pad S256x16 ![0, 0] ![51, 0] ![0, 0] (extractStridedSlice S205x16 ![410, 0] tab slices_S615x16_S205x16_410_0)
            z pads_S205x16_S256x16_0510_000 h_S_⟩]
        concatenates_S256x16_S256x16_S256x16_S768x16_d0)
      transposes_S768x16_S16x768_1_0 : FVec Ideal S16x768 .f32) (ix2 p q)
      = if q.val % 256 < 205
        then tab (ix2 (⟨(205 * (q.val / 256) + q.val % 256) % 615, Nat.mod_lt _ (by norm_num)⟩ : Fin 615) p)
        else z (Shape.Idx.first h_S_) := by
  have hq := q.isLt
  refine (stack3_at _ _ _ p q).trans ?_
  by_cases h0 : q.val < 256
  · rw [if_pos h0]
    refine (pad_slice_at tab z 0 _ (by norm_num) _ p).trans ?_
    have e2 : q.val / 256 = 0 := by omega
    simp only [e2, Nat.mul_zero]
  · rw [if_neg h0]
    by_cases h1 : q.val < 512
    · rw [if_pos h1]
      refine (pad_slice_at tab z 205 _ (by norm_num) _ p).trans ?_
      have e2 : q.val / 256 = 1 := by omega
      simp only [e2, Nat.mul_one]
    · rw [if_neg h1]
      refine (pad_slice_at tab z 410 _ (by norm_num) _ p).trans ?_
      have e2 : q.val / 256 = 2 := by omega
      simp only [e2, Nat.reduceMul]

/-- The converted integer zero is the real zero. -/
theorem zpad_eq (j : S_.Idx) : (sitofp .f32 (constantI S_ 32 0#32) : FVec Ideal S_ .f32) j = 0 := by
  show ((((0#32 : BitVec 32).toInt : ℤ) : ℝ) : EReal) = 0
  simp

/-- With three literal operands, the third is the last entry. -/
theorem vec3_two {α : Type} (a b c : α) : (![a, b, c] : Fin 3 → α) 2 = c := rfl

/-- Each operation's result at its own buffer is its function's value, and at any other buffer what was there before:
    rewritten until neither applies. -/
local macro "results_more" : tactic =>
  `(tactic| repeat (first
     | rw [StableHlo.nullary_result] | rw [StableHlo.unary_result] | rw [StableHlo.binary_result]
     | rw [StableHlo.reshape_result] | rw [StableHlo.nary_result]
     | (rw [StableHlo.nullary_result_ne]; rotate_left; decide)
     | (rw [StableHlo.unary_result_ne]; rotate_left; decide)
     | (rw [StableHlo.binary_result_ne]; rotate_left; decide)
     | (rw [StableHlo.reshape_result_ne]; rotate_left; decide)
     | (rw [StableHlo.nary_result_ne]; rotate_left; decide)))

set_option maxHeartbeats 1000000 in
/-- The operations before the region that write the stacked table, composed: three blocks of 205 rows of the table, each
    padded to 256 rows with the converted integer zero, laid end to end and transposed; that matrix rounded, over the
    rounding of its difference with its own rounding. -/
theorem tab_term (mI : (ℓ : Loc nD τ sig) → Buf (Elt Ideal) ℓ) (c : Dev nD) :
    (V mI c main_v17 : FVec Ideal S32x768 .bf16) =
      concatenate S32x768 0
        [⟨S16x768, (truncf .bf16
            (transpose S16x768 [1, 0]
              (concatenate S768x16 0
                [⟨S256x16, pad S256x16 ![0, 0] ![51, 0] ![0, 0] (extractStridedSlice S205x16 ![0, 0] (mI ((c : Thread nD τ).loc main_arg1) : FVec Ideal S615x16 .f32) slices_S615x16_S205x16_0_0)
                    (sitofp .f32 (constantI S_ 32 0#32) : FVec Ideal S_ .f32) pads_S205x16_S256x16_0510_000 h_S_⟩,
                 ⟨S256x16, pad S256x16 ![0, 0] ![51, 0] ![0, 0] (extractStridedSlice S205x16 ![205, 0] (mI ((c : Thread nD τ).loc main_arg1) : FVec Ideal S615x16 .f32) slices_S615x16_S205x16_205_0)
                    (sitofp .f32 (constantI S_ 32 0#32) : FVec Ideal S_ .f32) pads_S205x16_S256x16_0510_000 h_S_⟩,
                 ⟨S256x16, pad S256x16 ![0, 0] ![51, 0] ![0, 0] (extractStridedSlice S205x16 ![410, 0] (mI ((c : Thread nD τ).loc main_arg1) : FVec Ideal S615x16 .f32) slices_S615x16_S205x16_410_0)
                    (sitofp .f32 (constantI S_ 32 0#32) : FVec Ideal S_ .f32) pads_S205x16_S256x16_0510_000 h_S_⟩]
                concatenates_S256x16_S256x16_S256x16_S768x16_d0)
              transposes_S768x16_S16x768_1_0 : FVec Ideal S16x768 .f32)
            bitsLt_bf16_f32 : FVec Ideal S16x768 .bf16)⟩,
         ⟨S16x768, (truncf .bf16
            (subf
              (transpose S16x768 [1, 0]
                (concatenate S768x16 0
                  [⟨S256x16, pad S256x16 ![0, 0] ![51, 0] ![0, 0] (extractStridedSlice S205x16 ![0, 0] (mI ((c : Thread nD τ).loc main_arg1) : FVec Ideal S615x16 .f32) slices_S615x16_S205x16_0_0)
                      (sitofp .f32 (constantI S_ 32 0#32) : FVec Ideal S_ .f32) pads_S205x16_S256x16_0510_000 h_S_⟩,
                   ⟨S256x16, pad S256x16 ![0, 0] ![51, 0] ![0, 0] (extractStridedSlice S205x16 ![205, 0] (mI ((c : Thread nD τ).loc main_arg1) : FVec Ideal S615x16 .f32) slices_S615x16_S205x16_205_0)
                      (sitofp .f32 (constantI S_ 32 0#32) : FVec Ideal S_ .f32) pads_S205x16_S256x16_0510_000 h_S_⟩,
                   ⟨S256x16, pad S256x16 ![0, 0] ![51, 0] ![0, 0] (extractStridedSlice S205x16 ![410, 0] (mI ((c : Thread nD τ).loc main_arg1) : FVec Ideal S615x16 .f32) slices_S615x16_S205x16_410_0)
                      (sitofp .f32 (constantI S_ 32 0#32) : FVec Ideal S_ .f32) pads_S205x16_S256x16_0510_000 h_S_⟩]
                  concatenates_S256x16_S256x16_S256x16_S768x16_d0)
                transposes_S768x16_S16x768_1_0 : FVec Ideal S16x768 .f32)
              (extf .f32 (truncf .bf16
                (transpose S16x768 [1, 0]
                  (concatenate S768x16 0
                    [⟨S256x16, pad S256x16 ![0, 0] ![51, 0] ![0, 0] (extractStridedSlice S205x16 ![0, 0] (mI ((c : Thread nD τ).loc main_arg1) : FVec Ideal S615x16 .f32) slices_S615x16_S205x16_0_0)
                        (sitofp .f32 (constantI S_ 32 0#32) : FVec Ideal S_ .f32) pads_S205x16_S256x16_0510_000 h_S_⟩,
                     ⟨S256x16, pad S256x16 ![0, 0] ![51, 0] ![0, 0] (extractStridedSlice S205x16 ![205, 0] (mI ((c : Thread nD τ).loc main_arg1) : FVec Ideal S615x16 .f32) slices_S615x16_S205x16_205_0)
                        (sitofp .f32 (constantI S_ 32 0#32) : FVec Ideal S_ .f32) pads_S205x16_S256x16_0510_000 h_S_⟩,
                     ⟨S256x16, pad S256x16 ![0, 0] ![51, 0] ![0, 0] (extractStridedSlice S205x16 ![410, 0] (mI ((c : Thread nD τ).loc main_arg1) : FVec Ideal S615x16 .f32) slices_S615x16_S205x16_410_0)
                        (sitofp .f32 (constantI S_ 32 0#32) : FVec Ideal S_ .f32) pads_S205x16_S256x16_0510_000 h_S_⟩]
                    concatenates_S256x16_S256x16_S256x16_S768x16_d0)
                  transposes_S768x16_S16x768_1_0 : FVec Ideal S16x768 .f32)
                bitsLt_bf16_f32 : FVec Ideal S16x768 .bf16) bitsLt_bf16_f32))
            bitsLt_bf16_f32 : FVec Ideal S16x768 .bf16)⟩]
        concatenates_S16x768_S16x768_S32x768_d0 := by
  dsimp only [V, V0, before]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  simp only [Matrix.cons_val_zero, Matrix.cons_val_one, Matrix.head_cons, vec3_two]
  results_more
  rfl

/-- The stacked table over the extended reals. -/
def stackArr (tab : FVec Ideal S615x16 .f32) : FVec Ideal S32x768 .bf16 :=
  fun i => if (i 0).val < 16 ∧ (i 1).val % 256 < 205
    then tab (ix2 (⟨(205 * ((i 1).val / 256) + (i 1).val % 256) % 615, Nat.mod_lt _ (by norm_num)⟩ : Fin 615)
                  (⟨(i 0).val % 16, Nat.mod_lt _ (by norm_num)⟩ : Fin 16))
    else 0

/-- A matrix that reads as the padded table, stacked over its low half, is the stacked table. -/
theorem stack_at (tab : FVec Ideal S615x16 .f32) (hfin : ∀ i, ∃ r : ℝ, tab i = (r : EReal)) (P : FVec Ideal S16x768 .f32)
    (hP : ∀ (p : Fin 16) (q : Fin 768), P (ix2 p q) = if q.val % 256 < 205
      then tab (ix2 (⟨(205 * (q.val / 256) + q.val % 256) % 615, Nat.mod_lt _ (by norm_num)⟩ : Fin 615) p) else 0)
    (r : Fin 32) (k : Fin 768) :
    concatenate S32x768 0 [⟨S16x768, (truncf .bf16 P bitsLt_bf16_f32 : FVec Ideal S16x768 .bf16)⟩,
        ⟨S16x768, (truncf .bf16 (subf P (extf .f32 (truncf .bf16 P bitsLt_bf16_f32 : FVec Ideal S16x768 .bf16) bitsLt_bf16_f32)) bitsLt_bf16_f32 : FVec Ideal S16x768 .bf16)⟩]
        concatenates_S16x768_S16x768_S32x768_d0 (ix2 r k)
      = stackArr tab (ix2 r k) := by
  have hreal : ∀ (p : Fin 16) (q : Fin 768), ∃ x : ℝ, P (ix2 p q) = (x : EReal) := by
    intro p q
    rw [hP]
    split
    · exact hfin _
    · exact ⟨0, EReal.coe_zero.symm⟩
  refine (stack_of P (fun j => ?_) r k).trans ?_
  · obtain ⟨x, hx⟩ := hreal (j 0) (j 1)
    exact ⟨x, (congrArg P (eq_ix2 j)).trans hx⟩
  · rw [hP]
    show _ = if r.val < 16 ∧ k.val % 256 < 205
      then tab (ix2 (⟨(205 * (k.val / 256) + k.val % 256) % 615, Nat.mod_lt _ (by norm_num)⟩ : Fin 615)
                    (⟨r.val % 16, Nat.mod_lt _ (by norm_num)⟩ : Fin 16))
      else 0
    by_cases h1 : r.val < 16 <;> by_cases h2 : k.val % 256 < 205 <;> simp [h1, h2]

/-- The stacked table the region finds, when every entry of the launched table is real. -/
theorem entry_tab (mI : (ℓ : Loc nD τ sig) → Buf (Elt Ideal) ℓ) (c : Dev nD)
    (hfin : ∀ i, ∃ r : ℝ, (mI ((c : Thread nD τ).loc main_arg1) : FVec Ideal S615x16 .f32) i = (r : EReal)) :
    (V mI c main_v17 : FVec Ideal S32x768 .bf16) = stackArr (mI ((c : Thread nD τ).loc main_arg1)) := by
  rw [tab_term]
  funext i
  rw [eq_ix2 i]
  exact stack_at _ hfin _ (fun p q => (padded_at _ _ p q).trans (by rw [zpad_eq])) (i 0) (i 1)

end Cert.KernelIdeal.Frm

end
-- ==== Proof.IdealQuarter.lean ====
/-
  One entry of what the body stores. In quarter k, column j, the body compares the index words of the three axes
  with the row numbers 0…255, which gives for each axis a 0/1 column with a single one at that axis's index; the
  product of a 32 × 256 slice of the table with that column picks the slice's column at the index; the three picks
  are added from zero, and rows h and 16 + h of the 32-row result are added. Over real table entries this is the sum
  over the axes of the two picked entries.
-/
import proofs.«419546_j9010841387714_3_alg».proof.Proof.IdealBody
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Row `a` of the index block, spread down the 256 rows and compared with the row numbers: the entry at (r, j). -/
private theorem onehot_apply (o : Nat) (hs : S3x4096.Slices ![o, 0] S1x4096) (a : Fin 3) (ha : a.val = o)
    (h1 : S1x4096.ShapeCasts S4096) (h2 : S4096.ShapeCasts S1x4096) (h3 : S1x4096.Broadcasts S256x4096) (h4 : 1 < 32)
    (h5 : FTy.bits .bf16 < FTy.bits .f32)
    (blk : IVec S3x4096 32) (rows : IVec S256x4096 32) (r : Fin 256) (j : Fin 4096) :
    (truncf .bf16 (sitofp .f32 (extui 32 (cmpi .eq (broadcastTo S256x4096 (shapeCast S1x4096 (shapeCast S4096
        (extractStridedSlice S1x4096 ![o, 0] blk hs) h1) h2) h3) rows) h4) : FVec Ideal S256x4096 .f32) h5 : FVec Ideal S256x4096 .bf16) (ix2 r j)
      = FloatOps.sitofp (F := Ideal) .f32 ((IntOp.cmpi .eq (blk (ix2 a j)) (rows (ix2 r j))).setWidth 32) := by
  have hb : broadcastTo S256x4096 (shapeCast S1x4096 (shapeCast S4096 (extractStridedSlice S1x4096 ![o, 0] blk hs) h1) h2) h3 (ix2 r j)
      = blk (ix2 a j) := by
    refine (broadcastTo_1b_ab_apply _ _ r j).trans ?_
    refine (shapeCast_a_1a_apply _ _ 0 j).trans ?_
    refine (shapeCast_1a_a_apply _ _ j).trans ?_
    exact slice2_axis0_apply o blk hs 0 j a (by simp [ha])
  show FloatOps.sitofp (F := Ideal) .f32 ((IntOp.cmpi .eq (broadcastTo S256x4096 (shapeCast S1x4096 (shapeCast S4096
        (extractStridedSlice S1x4096 ![o, 0] blk hs) h1) h2) h3 (ix2 r j)) (rows (ix2 r j))).setWidth 32) = _
  rw [hb]

/-! The product's operand indices: at output entry (p, j) and contraction position k the left operand is read at
    (p, k) and the right one at (k, j). -/

private theorem lhs_ax0 (p : Fin 32) (j : Fin 4096) (k : dot_S32x256_S256x4096_S32x4096_1_0_0_1_n_n.contr.Idx) :
    ((dot_S32x256_S256x4096_S32x4096_1_0_0_1_n_n.lhsIdx (ix2 p j) k) 0).val = p.val := by
  simp [DotDims.lhsIdx, dot_S32x256_S256x4096_S32x4096_1_0_0_1_n_n]; rfl

private theorem lhs_ax1 (p : Fin 32) (j : Fin 4096) (k : dot_S32x256_S256x4096_S32x4096_1_0_0_1_n_n.contr.Idx) :
    ((dot_S32x256_S256x4096_S32x4096_1_0_0_1_n_n.lhsIdx (ix2 p j) k) 1).val = (k ⟨0, by decide⟩).val :=
  dot_S32x256_S256x4096_S32x4096_1_0_0_1_n_n.lhsIdx_val_of_single rfl (ix2 p j) k

private theorem rhs_ax0 (p : Fin 32) (j : Fin 4096) (k : dot_S32x256_S256x4096_S32x4096_1_0_0_1_n_n.contr.Idx) :
    ((dot_S32x256_S256x4096_S32x4096_1_0_0_1_n_n.rhsIdx (ix2 p j) k) 0).val = (k ⟨0, by decide⟩).val :=
  dot_S32x256_S256x4096_S32x4096_1_0_0_1_n_n.rhsIdx_val_of_single rfl (ix2 p j) k

private theorem rhs_ax1 (p : Fin 32) (j : Fin 4096) (k : dot_S32x256_S256x4096_S32x4096_1_0_0_1_n_n.contr.Idx) :
    ((dot_S32x256_S256x4096_S32x4096_1_0_0_1_n_n.rhsIdx (ix2 p j) k) 1).val = j.val := by
  simp [DotDims.rhsIdx, dot_S32x256_S256x4096_S32x4096_1_0_0_1_n_n]; rfl

/-- The 32 × 256 by 256 × 4096 product into a zero accumulator, at entry (p, j): the sum over the 256 contracted
    positions of the products of the entries. -/
private theorem mm_apply (L : FVec Ideal S32x256 .bf16) (R : FVec Ideal S256x4096 .bf16) (p : Fin 32) (j : Fin 4096) :
    matmul dot_S32x256_S256x4096_S32x4096_1_0_0_1_n_n none L R (constant S32x4096 .f32 0x00000000#32) (ix2 p j)
      = ∑ c : Fin 256, L (ix2 p c) * R (ix2 c j) := by
  refine (Ideal.matmul_constant_zero_apply dot_S32x256_S256x4096_S32x4096_1_0_0_1_n_n none L R (ix2 p j)).trans ?_
  rw [← Equiv.sum_comp (contrEquiv1 dot_S32x256_S256x4096_S32x4096_1_0_0_1_n_n 256 rfl rfl).symm]
  refine Finset.sum_congr rfl fun c _ => ?_
  have hc := contrEquiv1_symm_val dot_S32x256_S256x4096_S32x4096_1_0_0_1_n_n 256 rfl rfl c
  have hl : dot_S32x256_S256x4096_S32x4096_1_0_0_1_n_n.lhsIdx (ix2 p j)
      ((contrEquiv1 dot_S32x256_S256x4096_S32x4096_1_0_0_1_n_n 256 rfl rfl).symm c) = ix2 p c := by
    funext ax; apply Fin.ext
    match ax with
    | ⟨0, _⟩ => exact lhs_ax0 _ _ _
    | ⟨1, _⟩ => exact (lhs_ax1 _ _ _).trans hc
  have hr : dot_S32x256_S256x4096_S32x4096_1_0_0_1_n_n.rhsIdx (ix2 p j)
      ((contrEquiv1 dot_S32x256_S256x4096_S32x4096_1_0_0_1_n_n 256 rfl rfl).symm c) = ix2 c j := by
    funext ax; apply Fin.ext
    match ax with
    | ⟨0, _⟩ => exact (rhs_ax0 _ _ _).trans hc
    | ⟨1, _⟩ => exact rhs_ax1 _ _ _
  rw [hl, hr]

/-- The word comparison behind a zero/one entry, converted: one when the row number is the index, zero otherwise
    (numbers below 256 are distinct as 32-bit words). -/
private theorem hot_val (r v : Fin 256) :
    FloatOps.sitofp (F := Ideal) .f32 ((IntOp.cmpi .eq (BitVec.ofNat 32 v.val) (BitVec.ofNat 32 r.val)).setWidth 32)
      = if r = v then (1 : EReal) else 0 := by
  show (((BitVec.setWidth 32 (BitVec.ofBool (BitVec.ofNat 32 v.val == BitVec.ofNat 32 r.val))).toInt : ℝ) : EReal) = _
  by_cases h : r = v
  · subst h
    rw [if_pos rfl, beq_self_eq_true]
    have : (BitVec.setWidth 32 (BitVec.ofBool true)).toInt = 1 := by decide
    rw [this]; norm_num
  · have hne : (BitVec.ofNat 32 v.val == BitVec.ofNat 32 r.val) = false := by
      rw [beq_eq_false_iff_ne]
      intro e
      apply h
      have e' := congrArg BitVec.toNat e
      rw [BitVec.toNat_ofNat, BitVec.toNat_ofNat, Nat.mod_eq_of_lt (by have := v.isLt; omega),
        Nat.mod_eq_of_lt (by have := r.isLt; omega)] at e'
      exact Fin.ext e'.symm
    rw [if_neg h, hne]
    have : (BitVec.setWidth 32 (BitVec.ofBool false)).toInt = 0 := by decide
    rw [this]; norm_num

/-- One axis's pick: the product of the table's 256 columns from `o'` with the axis's zero/one matrix, into a zero
    accumulator, read at (p, j), is the table at row p, column `o'` + the axis's index: the one nonzero term of the sum. -/
private theorem axis_apply (o : Nat) (hs : S3x4096.Slices ![o, 0] S1x4096) (a : Fin 3) (ha : a.val = o)
    (o' : Nat) (hs' : S32x768.Slices ![0, o'] S32x256)
    (h1 : S1x4096.ShapeCasts S4096) (h2 : S4096.ShapeCasts S1x4096) (h3 : S1x4096.Broadcasts S256x4096) (h4 : 1 < 32)
    (h5 : FTy.bits .bf16 < FTy.bits .f32)
    (tb : FVec Ideal S32x768 .bf16) (rows : IVec S256x4096 32) (blk : IVec S3x4096 32)
    (hrows : ∀ (r : Fin 256) (j : Fin 4096), rows (ix2 r j) = BitVec.ofNat 32 r.val)
    (p : Fin 32) (j : Fin 4096) (w : Fin 256) (hw : blk (ix2 a j) = BitVec.ofNat 32 w.val)
    (q : Fin 768) (hq : q.val = o' + w.val) :
    matmul dot_S32x256_S256x4096_S32x4096_1_0_0_1_n_n none (extractStridedSlice S32x256 ![0, o'] tb hs')
        (truncf .bf16 (sitofp .f32 (extui 32 (cmpi .eq (broadcastTo S256x4096 (shapeCast S1x4096 (shapeCast S4096
          (extractStridedSlice S1x4096 ![o, 0] blk hs) h1) h2) h3) rows) h4) : FVec Ideal S256x4096 .f32) h5 : FVec Ideal S256x4096 .bf16)
        (constant S32x4096 .f32 0x00000000#32) (ix2 p j)
      = tb (ix2 p q) := by
  refine (mm_apply _ _ p j).trans ?_
  have hot : ∀ c : Fin 256,
      (truncf .bf16 (sitofp .f32 (extui 32 (cmpi .eq (broadcastTo S256x4096 (shapeCast S1x4096 (shapeCast S4096
          (extractStridedSlice S1x4096 ![o, 0] blk hs) h1) h2) h3) rows) h4) : FVec Ideal S256x4096 .f32) h5 : FVec Ideal S256x4096 .bf16) (ix2 c j)
        = if c = w then (1 : EReal) else 0 := fun c => by
    rw [onehot_apply o hs a ha h1 h2 h3 h4 h5 blk rows c j, hw, hrows c j]
    exact hot_val c w
  rw [Finset.sum_eq_single w]
  · rw [hot w, if_pos rfl, mul_one]
    exact slice2_axis1_apply o' tb hs' p w q hq
  · intro c _ hc
    rw [hot c, if_neg hc, mul_zero]
  · intro hn; exact absurd (Finset.mem_univ _) hn

/-- The 32 × 4096 sum every quarter forms before folding its two halves: the three axes' picks added one after the
    other onto a zero matrix. -/
private def total (tb : FVec Ideal S32x768 .bf16) (rows : IVec S256x4096 32) (blk : IVec S3x4096 32) : FVec Ideal S32x4096 .f32 :=
  addf (addf (addf (broadcast S32x4096 (Scalar.ofBits (F := Ideal) .f32 0x00000000#32))
    (matmul dot_S32x256_S256x4096_S32x4096_1_0_0_1_n_n none (extractStridedSlice S32x256 ![0, 0] tb slices_S32x768_o0_0_S32x256)
      (truncf .bf16 (sitofp .f32 (extui 32 (cmpi .eq (broadcastTo S256x4096 (shapeCast S1x4096 (shapeCast S4096
        (extractStridedSlice S1x4096 ![0, 0] blk slices_S3x4096_o0_0_S1x4096) shapeCasts_S1x4096_S4096) shapeCasts_S4096_S1x4096)
        broadcasts_S1x4096_S256x4096) rows) natLt_1_32)) bitsLt_bf16_f32) (constant S32x4096 .f32 0x00000000#32)))
    (matmul dot_S32x256_S256x4096_S32x4096_1_0_0_1_n_n none (extractStridedSlice S32x256 ![0, 256] tb slices_S32x768_o0_256_S32x256)
      (truncf .bf16 (sitofp .f32 (extui 32 (cmpi .eq (broadcastTo S256x4096 (shapeCast S1x4096 (shapeCast S4096
        (extractStridedSlice S1x4096 ![1, 0] blk slices_S3x4096_o1_0_S1x4096) shapeCasts_S1x4096_S4096) shapeCasts_S4096_S1x4096)
        broadcasts_S1x4096_S256x4096) rows) natLt_1_32)) bitsLt_bf16_f32) (constant S32x4096 .f32 0x00000000#32)))
    (matmul dot_S32x256_S256x4096_S32x4096_1_0_0_1_n_n none (extractStridedSlice S32x256 ![0, 512] tb slices_S32x768_o0_512_S32x256)
      (truncf .bf16 (sitofp .f32 (extui 32 (cmpi .eq (broadcastTo S256x4096 (shapeCast S1x4096 (shapeCast S4096
        (extractStridedSlice S1x4096 ![2, 0] blk slices_S3x4096_o2_0_S1x4096) shapeCasts_S1x4096_S4096) shapeCasts_S4096_S1x4096)
        broadcasts_S1x4096_S256x4096) rows) natLt_1_32)) bitsLt_bf16_f32) (constant S32x4096 .f32 0x00000000#32))

/-- Each payload is that sum's rows 0–15 plus its rows 16–31, of its table, row numbers and index block. -/
private theorem pay1_eq (tb : FVec Ideal S32x768 .bf16) (rows : IVec S256x4096 32) (blk : Vec Ideal S3x4096 .i32) :
    k0_pay1 (F := Ideal) tb rows blk
      = addf (extractStridedSlice S16x4096 ![0, 0] (total tb rows (shapeCast S3x4096 blk shapeCasts_S3x4096_S3x4096)) slices_S32x4096_o0_0_S16x4096)
          (extractStridedSlice S16x4096 ![16, 0] (total tb rows (shapeCast S3x4096 blk shapeCasts_S3x4096_S3x4096)) slices_S32x4096_o16_0_S16x4096) := rfl

private theorem pay4_eq : k0_pay4 (F := Ideal) = k0_pay1 := rfl
private theorem pay5_eq : k0_pay5 (F := Ideal) = k0_pay1 := rfl
private theorem pay3_eq (v0 : Vec Ideal S32x768 .bf16) (v6 : Vec Ideal S3x4096 .i32) :
    k0_pay3 (F := Ideal) v0 v6 = k0_pay1 (k0_pay2 v0) (iota .tc S256x4096 32 [0] iota_S256x4096_d0_w32) v6 := rfl

/-- The sum at (p, j), when column j of the index block holds the words w 0, w 1, w 2 below 256. -/
private theorem total_apply (tb : FVec Ideal S32x768 .bf16) (rows : IVec S256x4096 32) (blk : IVec S3x4096 32)
    (hrows : ∀ (r : Fin 256) (j : Fin 4096), rows (ix2 r j) = BitVec.ofNat 32 r.val)
    (p : Fin 32) (j : Fin 4096) (w : Fin 3 → Fin 256) (hw : ∀ a : Fin 3, blk (ix2 a j) = BitVec.ofNat 32 (w a).val)
    (q : Fin 3 → Fin 768) (hq : ∀ a : Fin 3, (q a).val = 256 * a.val + (w a).val) :
    total tb rows blk (ix2 p j) = tb (ix2 p (q 0)) + tb (ix2 p (q 1)) + tb (ix2 p (q 2)) := by
  unfold total
  rw [addf_apply, addf_apply, addf_apply, broadcast_apply]
  rw [axis_apply 0 slices_S3x4096_o0_0_S1x4096 0 rfl 0 slices_S32x768_o0_0_S32x256 _ _ _ _ _ tb rows blk hrows p j (w 0) (hw 0) (q 0) (by rw [hq 0]; rfl),
    axis_apply 1 slices_S3x4096_o1_0_S1x4096 1 rfl 256 slices_S32x768_o0_256_S32x256 _ _ _ _ _ tb rows blk hrows p j (w 1) (hw 1) (q 1) (by rw [hq 1]; rfl),
    axis_apply 2 slices_S3x4096_o2_0_S1x4096 2 rfl 512 slices_S32x768_o0_512_S32x256 _ _ _ _ _ tb rows blk hrows p j (w 2) (hw 2) (q 2) (by rw [hq 2]; rfl)]
  show Ideal.ofBits .f32 0x00000000#32 + _ + _ + _ = _
  rw [Ideal.ofBits_zero_f32, zero_add]

/-- The payload at (h, j). -/
private theorem pay1_apply (tb : FVec Ideal S32x768 .bf16) (rows : IVec S256x4096 32) (blk : Vec Ideal S3x4096 .i32)
    (hrows : ∀ (r : Fin 256) (j : Fin 4096), rows (ix2 r j) = BitVec.ofNat 32 r.val)
    (h : Fin 16) (j : Fin 4096) (w : Fin 3 → Fin 256) (hw : ∀ a : Fin 3, blk (ix2 a j) = BitVec.ofNat 32 (w a).val)
    (q : Fin 3 → Fin 768) (hq : ∀ a : Fin 3, (q a).val = 256 * a.val + (w a).val)
    (p p' : Fin 32) (hp : p.val = h.val) (hp' : p'.val = 16 + h.val) :
    k0_pay1 (F := Ideal) tb rows blk (ix2 h j) = ∑ a : Fin 3, (tb (ix2 p (q a)) + tb (ix2 p' (q a))) := by
  rw [pay1_eq, shapeCast_self, addf_apply,
    slice2_axis0_apply 0 _ slices_S32x4096_o0_0_S16x4096 h j p (by rw [hp, Nat.zero_add]),
    slice2_axis0_apply 16 _ slices_S32x4096_o16_0_S16x4096 h j p' hp',
    total_apply tb rows blk hrows p j w hw q hq, total_apply tb rows blk hrows p' j w hw q hq, Fin.sum_univ_three]
  abel

/-- The index block of quarter `k` at (a, j) is the index rows at (a, 4096·k + j). -/
private theorem ld_rI (x0 : Vec Ideal S3x16384 .i32) (k : Fin 4) (a : Fin 3) (j : Fin 4096) (c : Fin 16384)
    (hc : c.val = 4096 * k.val + j.val) :
    View.ld x0 (rI k) (ix2 a j) = x0 (ix2 a c) := by
  show x0 ((rI k).idx (ix2 a j)) = _
  refine congrArg x0 (funext fun ax => Fin.ext ?_)
  have hoff := k0_off1_eq k
  match ax with
  | ⟨0, _⟩ =>
    show k0_off1 (BitVec.ofNat 32 k.val) 0 + 1 * a.val = a.val
    rw [hoff]; show 0 + 1 * a.val = a.val; omega
  | ⟨1, _⟩ =>
    show k0_off1 (BitVec.ofNat 32 k.val) 1 + 1 * j.val = c.val
    rw [hoff, hc]; show 4096 * k.val + 1 * j.val = _; omega

/-- The table as the body holds it is the table. -/
private theorem tbl_eq (x1 : Vec Ideal S32x768 .bf16) : k0_pay2 (F := Ideal) (View.ld x1 rT) = x1 := by
  unfold k0_pay2
  rw [shapeCast_self]
  exact View.ld_unit_zero (funext fun a => by match a with | ⟨0, _⟩ => rfl | ⟨1, _⟩ => rfl) _ x1

/-- The row-number matrix at (r, j) is the word r. -/
private theorem rowNo_apply (r : Fin 256) (j : Fin 4096) :
    iota .tc S256x4096 32 [0] iota_S256x4096_d0_w32 (ix2 r j) = BitVec.ofNat 32 r.val :=
  iota_single_apply .tc S256x4096 32 0 iota_S256x4096_d0_w32 (ix2 r j)

/-- Entry (h, j) of quarter `k`, when column 4096·k + j of the index rows holds the words v 0, v 1, v 2 < 256 and the
    table's entries are real: the sum over the three axes of the table at rows h and 16 + h, column 256·a + v a. -/
theorem quarter_apply (x0 : Vec Ideal S3x16384 .i32) (x1 : Vec Ideal S32x768 .bf16) (k : Fin 4) (h : Fin 16) (j : Fin 4096)
    (v : Fin 3 → Fin 256)
    (hv : ∀ a : Fin 3, x0 (ix2 a (⟨4096 * k.val + j.val, by have := k.isLt; have := j.isLt; omega⟩ : Fin 16384)) = BitVec.ofNat 32 (v a).val)
    (hreal : ∀ i, ∃ r : ℝ, x1 i = (r : EReal)) :
    quarter (F := Ideal) x0 x1 k (ix2 h j)
      = ∑ a : Fin 3, (x1 (ix2 (⟨h.val, by have := h.isLt; omega⟩ : Fin 32) (⟨256 * a.val + (v a).val, by have := a.isLt; have := (v a).isLt; omega⟩ : Fin 768))
                    + x1 (ix2 (⟨16 + h.val, by have := h.isLt; omega⟩ : Fin 32) (⟨256 * a.val + (v a).val, by have := a.isLt; have := (v a).isLt; omega⟩ : Fin 768))) := by
  have key : quarter (F := Ideal) x0 x1 k = k0_pay1 x1 (iota .tc S256x4096 32 [0] iota_S256x4096_d0_w32) (View.ld x0 (rI k)) := by
    have hk : k = 0 ∨ k = 1 ∨ k = 2 ∨ k = 3 := by omega
    rcases hk with rfl | rfl | rfl | rfl
    · show k0_pay3 (View.ld x1 rT) (View.ld x0 (rI 0)) = _
      rw [pay3_eq, tbl_eq]
    · show k0_pay4 (k0_pay2 (View.ld x1 rT)) (iota .tc S256x4096 32 [0] iota_S256x4096_d0_w32) (View.ld x0 (rI 1)) = _
      rw [pay4_eq, tbl_eq]
    · show k0_pay5 (k0_pay2 (View.ld x1 rT)) (iota .tc S256x4096 32 [0] iota_S256x4096_d0_w32) (View.ld x0 (rI 2)) = _
      rw [pay5_eq, tbl_eq]
    · show k0_pay1 (k0_pay2 (View.ld x1 rT)) (iota .tc S256x4096 32 [0] iota_S256x4096_d0_w32) (View.ld x0 (rI 3)) = _
      rw [tbl_eq]
  rw [key]
  exact pay1_apply x1 _ (View.ld x0 (rI k)) rowNo_apply h j v
    (fun a => (ld_rI x0 k a j _ rfl).trans (hv a))
    (fun a => ⟨256 * a.val + (v a).val, by have := a.isLt; have := (v a).isLt; omega⟩) (fun a => rfl) _ _ rfl rfl

end Cert.KernelIdeal.Frm

end
-- ==== Proof.IdealValue.lean ====
/-
  The kernel program's result as a function of its arguments. Grid point t reads columns 16384·t … of the three index
  rows and the whole stacked table, and writes back batch t of the [256, 16, 16384] result. An entry (h, n) of that
  batch lies in quarter n / 4096 of the body's matrix, whose value there is the sum over the three axes of the stacked
  table at rows h and 16 + h, column 256·a + (the index word of axis a at column n); the index word is the shifted
  coordinate, at most 204, so the column is inside the unpadded part of axis a's slice, where rows 0…15 hold the
  table's row 205·a + word and rows 16…31 hold zero. Position n is (p, q) = (n / 128, n mod 128), and the closing
  reshape splits the last axis accordingly: the result is the looked-up sum.
-/
import proofs.«419546_j9010841387714_3_alg».proof.Proof.IdealFrame
import proofs.«419546_j9010841387714_3_alg».proof.Proof.IdealHost
import proofs.«419546_j9010841387714_3_alg».proof.Proof.IdealQuarter
import proofs.«419546_j9010841387714_3_alg».proof.Proof.Lookup
import Idealize.ShloMosaic.Lib.Pipeline.Value
import Idealize.ShloMosaic.Lib.ValueIdx
import Idealize.ShloMosaic.Lib.StableHlo.Run

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

variable (mI : (ℓ : Loc nD τ sig) → Buf (Elt Ideal) ℓ)

/-! ## Which block each grid point uses -/

theorem index0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)

theorem lt256 (t : Fin cfg0.N) : t.val < 256 := by have := t.isLt; have h : cfg0.N = 256 := N_0; omega

/-- The index block at point `t` is columns 16384·t … 16384·t + 16383 of the index array. -/
theorem iblk0_apply (c : Dev nD) (t : Fin cfg0.N) (a : Fin 3) (n : Fin 16384) :
    (iblk m c 0 t : S3x16384.Idx → BitVec 32) (ix2 a n)
      = (V m c main_v4 : S3x4194304.Idx → BitVec 32) (ix2 a (⟨16384 * t.val + n.val, by have := lt256 t; have := n.isLt; omega⟩ : Fin 4194304)) := by
  unfold iblk
  rw [View.read_apply]
  show V m c main_v4 _ = V m c main_v4 _
  congr 1
  funext d
  apply Fin.ext
  match d with
  | ⟨0, _⟩ => show win0_0.index t 0 * 3 + 1 * a.val = a.val; rw [(index0 t).1]; omega
  | ⟨1, _⟩ => show win0_0.index t 1 * 16384 + 1 * n.val = 16384 * t.val + n.val; rw [(index0 t).2]; omega

/-- The table block at every point is the whole stacked table. -/
theorem iblk1_apply (c : Dev nD) (t : Fin cfg0.N) (r : Fin 32) (k : Fin 768) :
    (iblk mI c 1 t : S32x768.Idx → EReal) (ix2 r k) = (V mI c main_v17 : S32x768.Idx → EReal) (ix2 r k) := by
  unfold iblk
  rw [View.read_apply]
  show V mI c main_v17 _ = V mI c main_v17 _
  congr 1
  funext d
  apply Fin.ext
  match d with
  | ⟨0, _⟩ => show win0_1.index t 0 * 32 + 1 * r.val = r.val; rw [(index1 t).1]; omega
  | ⟨1, _⟩ => show win0_1.index t 1 * 768 + 1 * k.val = k.val; rw [(index1 t).2]; omega

/-! ## The four stores as one matrix -/

/-- The 16 × 16384 matrix the body leaves: column n is column n mod 4096 of quarter n / 4096. -/
def mat (x0 : Vec Ideal S3x16384 .i32) (x1 : Vec Ideal S32x768 .bf16) : S16x16384.Idx → EReal :=
  fun z => quarter (F := Ideal) x0 x1 (⟨(z 1).val / 4096 % 4, Nat.mod_lt _ (by norm_num)⟩ : Fin 4)
    (ix2 (⟨(z 0).val % 16, Nat.mod_lt _ (by norm_num)⟩ : Fin 16) (⟨(z 1).val % 4096, Nat.mod_lt _ (by norm_num)⟩ : Fin 4096))

theorem quarter_eq_mat (x0 : Vec Ideal S3x16384 .i32) (x1 : Vec Ideal S32x768 .bf16) (k : Fin 4) (x : (rO k).shape.Idx) :
    quarter (F := Ideal) x0 x1 k x = mat x0 x1 ((rO k).emb x) := by
  have h0 : ((rO k).emb x 0).val = (x 0).val := by
    rw [Rect.emb_apply]; fin_cases k <;> (show 0 + 1 * (x 0).val = _; omega)
  have h1 : ((rO k).emb x 1).val = 4096 * k.val + (x 1).val := by
    rw [Rect.emb_apply]; fin_cases k <;> (show _ + 1 * (x 1).val = _; simp; first | rfl | decide)
  have hx0 : (x 0).val < 16 := (x 0).isLt
  have hx1 : (x 1).val < 4096 := (x 1).isLt
  have hk := k.isLt
  unfold mat
  have e1 : (⟨((rO k).emb x 1).val / 4096 % 4, Nat.mod_lt _ (by norm_num)⟩ : Fin 4) = k := Fin.ext (by show _ / 4096 % 4 = k.val; rw [h1]; omega)
  rw [e1]
  congr 1
  funext d
  apply Fin.ext
  match d with
  | ⟨0, _⟩ => show (x 0).val = ((rO k).emb x 0).val % 16; rw [h0]; omega
  | ⟨1, _⟩ => show (x 1).val = ((rO k).emb x 1).val % 4096; rw [h1]; omega

theorem canon_stores (x0 : Vec Ideal S3x16384 .i32) (x1 : Vec Ideal S32x768 .bf16) (z : S16x16384.Idx) :
    View.canon (stores (F := Ideal) x0 x1) z = mat x0 x1 z :=
  View.canon_apply_of_pieces (mat x0 x1) (stores x0 x1) (by
    intro p hp x
    simp only [stores, List.mem_cons, List.mem_nil_iff, or_false] at hp
    rcases hp with rfl | rfl | rfl | rfl
    · exact quarter_eq_mat x0 x1 3 x
    · exact quarter_eq_mat x0 x1 2 x
    · exact quarter_eq_mat x0 x1 1 x
    · exact quarter_eq_mat x0 x1 0 x) z (stores_cover x0 x1 z)

/-- Dropping the block's unit axis: index (0, h, n) is index (h, n) of the matrix. -/
theorem dropUnit_eq (y : S1x16x16384.Idx) :
    dropUnit y = (ix2 (⟨(y 1).val, (y 1).isLt⟩ : Fin 16) (⟨(y 2).val, (y 2).isLt⟩ : Fin 16384) : S16x16384.Idx) := by
  unfold dropUnit
  rw [Equiv.symm_apply_eq]
  symm
  apply Shape.reshapeEquiv_eq_of_rowMajor
  have h0 : (y 0).val = 0 := by have h : (y 0).val < 1 := (y 0).isLt; omega
  rw [Shape.rowMajor_val_three, Shape.rowMajor_val_two]
  show ((y 0).val * 16 + (y 1).val) * 16384 + (y 2).val = (y 1).val * 16384 + (y 2).val
  rw [h0]; omega

/-- So the body leaves at index (0, h, n) of the output block the matrix entry (h, n). -/
theorem outBuf_apply (x0 : Vec Ideal S3x16384 .i32) (x1 : Vec Ideal S32x768 .bf16) (y : S1x16x16384.Idx) :
    outBuf (F := Ideal) x0 x1 y = mat x0 x1 (ix2 (⟨(y 1).val, (y 1).isLt⟩ : Fin 16) (⟨(y 2).val, (y 2).isLt⟩ : Fin 16384)) := by
  unfold outBuf
  rw [dropUnit_eq, canon_stores]

/-! ## One entry of what a grid point writes back -/

/-- The launched coordinates and table on core `c`. -/
abbrev xyzOf (c : Dev nD) : IVec S256x128x128x3 32 := mI ((c : Thread nD τ).loc main_arg0)
abbrev tabOf (c : Dev nD) : FVec Ideal S615x16 .f32 := mI ((c : Thread nD τ).loc main_arg1)

/-- Entry (a, n) of the index block at point `t` is the shifted coordinate `a` of position (n / 128, n mod 128) of batch `t`. -/
theorem index_word (c : Dev nD) (t : Fin cfg0.N) (a : Fin 3) (n : Fin 16384) :
    (iblk mI c 0 t : S3x16384.Idx → BitVec 32) (ix2 a n)
      = Cert.Lookup.shift (xyzOf mI c (ix4 (⟨t.val, lt256 t⟩ : Fin 256) (⟨n.val / 128, by have := n.isLt; omega⟩ : Fin 128)
          (⟨n.val % 128, Nat.mod_lt _ (by norm_num)⟩ : Fin 128) a)) := by
  have ht := lt256 t
  have hn := n.isLt
  have ha := a.isLt
  rw [iblk0_apply, entry_idx]
  unfold idxArr
  congr 2
  funext d
  match d with
  | ⟨0, _⟩ => exact Fin.ext (by show (16384 * t.val + n.val) / 16384 % 256 = t.val; omega)
  | ⟨1, _⟩ => exact Fin.ext (by show (16384 * t.val + n.val) / 128 % 128 = n.val / 128; omega)
  | ⟨2, _⟩ => exact Fin.ext (by show (16384 * t.val + n.val) % 128 = n.val % 128; omega)
  | ⟨3, _⟩ => exact Fin.ext (by show a.val % 3 = a.val; omega)

/-- Rows 0…15 of the stacked table, inside the unpadded part of axis `a`'s slice, hold the table's row 205·a + v. -/
theorem stack_lo (tab : FVec Ideal S615x16 .f32) (h : Fin 16) (a : Fin 3) (v : ℕ) (hv : v ≤ 204) :
    stackArr tab (ix2 (⟨h.val, by have := h.isLt; omega⟩ : Fin 32) (⟨256 * a.val + v, by have := a.isLt; omega⟩ : Fin 768))
      = tab (ix2 (⟨205 * a.val + v, by have := a.isLt; omega⟩ : Fin 615) h) := by
  have hh := h.isLt
  have ha := a.isLt
  unfold stackArr
  have hc : (h.val < 16 ∧ (256 * a.val + v) % 256 < 205) := ⟨hh, by omega⟩
  show (if h.val < 16 ∧ (256 * a.val + v) % 256 < 205 then _ else _) = _
  rw [if_pos hc]
  congr 1
  funext d
  match d with
  | ⟨0, _⟩ => exact Fin.ext (by show (205 * ((256 * a.val + v) / 256) + (256 * a.val + v) % 256) % 615 = 205 * a.val + v; omega)
  | ⟨1, _⟩ => exact Fin.ext (by show h.val % 16 = h.val; omega)

/-- Rows 16…31 of the stacked table hold zero. -/
theorem stack_hi (tab : FVec Ideal S615x16 .f32) (h : Fin 16) (k : Fin 768) :
    stackArr tab (ix2 (⟨16 + h.val, by have := h.isLt; omega⟩ : Fin 32) k) = 0 := by
  unfold stackArr
  show (if 16 + h.val < 16 ∧ k.val % 256 < 205 then _ else _) = _
  rw [if_neg (by omega)]

/-- Every entry of the stacked table is real when the launched table's are. -/
theorem stack_real (tab : FVec Ideal S615x16 .f32) (hfin : ∀ i, ∃ r : ℝ, tab i = (r : EReal)) (i : S32x768.Idx) :
    ∃ r : ℝ, stackArr tab i = (r : EReal) := by
  unfold stackArr
  split
  · exact hfin _
  · exact ⟨0, rfl⟩

/-- The looked-up sum on the region's own array shape [256, 16, 16384]: the last axis is 128·p + q. -/
def G18 (xyz : IVec S256x128x128x3 32) (tab : FVec Ideal S615x16 .f32) : FVec Ideal S256x16x16384 .f32 :=
  fun i => Cert.Lookup.entry xyz tab (⟨(i 0).val, (i 0).isLt⟩ : Fin 256) (⟨(i 1).val, (i 1).isLt⟩ : Fin 16)
    (⟨(i 2).val / 128, by have h : (i 2).val < 16384 := (i 2).isLt; omega⟩ : Fin 128) (⟨(i 2).val % 128, Nat.mod_lt _ (by norm_num)⟩ : Fin 128)

/-- Entry (h, n) of the matrix the body leaves at point `t` is the looked-up sum at batch `t`, head `h`, position n. -/
theorem mat_entry (c : Dev nD) (hfin : ∀ i, ∃ r : ℝ, tabOf mI c i = (r : EReal)) (t : Fin cfg0.N) (h : Fin 16) (n : Fin 16384) :
    mat (iblk mI c 0 t) (iblk mI c 1 t) (ix2 h n)
      = Cert.Lookup.entry (xyzOf mI c) (tabOf mI c) (⟨t.val, lt256 t⟩ : Fin 256) h
          (⟨n.val / 128, by have := n.isLt; omega⟩ : Fin 128) (⟨n.val % 128, Nat.mod_lt _ (by norm_num)⟩ : Fin 128) := by
  have hn := n.isLt
  have hh := h.isLt
  have htab : (iblk mI c 1 t : S32x768.Idx → EReal) = stackArr (tabOf mI c) := by
    funext (i : S32x768.Idx)
    obtain ⟨p, q, rfl⟩ : ∃ (p : Fin 32) (q : Fin 768), i = ix2 p q := ⟨i 0, i 1, eq_ix2 i⟩
    rw [iblk1_apply, entry_tab mI c hfin]
  let w : Fin 3 → BitVec 32 := fun a => Cert.Lookup.shift (xyzOf mI c (ix4 (⟨t.val, lt256 t⟩ : Fin 256)
      (⟨n.val / 128, by omega⟩ : Fin 128) (⟨n.val % 128, Nat.mod_lt _ (by norm_num)⟩ : Fin 128) a))
  have hw : ∀ a, (w a).toNat ≤ 204 := fun a => Cert.Lookup.shift_le _
  have hq := quarter_apply (iblk mI c 0 t) (iblk mI c 1 t) (⟨n.val / 4096 % 4, Nat.mod_lt _ (by norm_num)⟩ : Fin 4) h
    (⟨n.val % 4096, Nat.mod_lt _ (by norm_num)⟩ : Fin 4096) (fun a => (⟨(w a).toNat, by have := hw a; omega⟩ : Fin 256))
    (fun a => by
      have e : (⟨4096 * (n.val / 4096 % 4) + n.val % 4096, by omega⟩ : Fin 16384) = n := Fin.ext (by show 4096 * (n.val / 4096 % 4) + n.val % 4096 = n.val; omega)
      rw [e, index_word mI c t a n]
      show w a = BitVec.ofNat 32 (w a).toNat
      rw [BitVec.ofNat_toNat, BitVec.setWidth_eq])
    (fun i => by rw [htab]; exact stack_real _ hfin i)
  unfold mat
  show quarter (F := Ideal) (iblk mI c 0 t) (iblk mI c 1 t) (⟨n.val / 4096 % 4, _⟩ : Fin 4) (ix2 (⟨h.val % 16, _⟩ : Fin 16) (⟨n.val % 4096, _⟩ : Fin 4096)) = _
  have eh : (⟨h.val % 16, Nat.mod_lt _ (by norm_num)⟩ : Fin 16) = h := Fin.ext (by show h.val % 16 = h.val; omega)
  rw [eh, hq]
  unfold Cert.Lookup.entry
  refine Finset.sum_congr rfl fun a _ => ?_
  rw [htab]
  show stackArr (tabOf mI c) (ix2 (⟨h.val, _⟩ : Fin 32) (⟨256 * a.val + (w a).toNat, _⟩ : Fin 768))
      + stackArr (tabOf mI c) (ix2 (⟨16 + h.val, _⟩ : Fin 32) (⟨256 * a.val + (w a).toNat, _⟩ : Fin 768)) = _
  rw [stack_lo (tabOf mI c) h a (w a).toNat (hw a), stack_hi, add_zero]
  rfl

/-! ## The region's array after the run -/

/-- Point `t` writes back batch `t` of the looked-up sum. -/
theorem flushed_eq (c : Dev nD) (hfin : ∀ i, ∃ r : ℝ, tabOf mI c i = (r : EReal)) (t : Fin cfg0.N) :
    (dats mI 0 c).flushed 2 t = ((cfg0.win 2).blk t).view.read (Elt Ideal) (G18 (xyzOf mI c) (tabOf mI c)) := by
  show (cfg0.win 2).cut (grid0.coords t) ((dats mI 0 c).after 2 t) = _
  rw [after2]
  funext y
  show outBuf (F := Ideal) (iblk mI c 0 t) (iblk mI c 1 t) y = G18 (xyzOf mI c) (tabOf mI c) (((cfg0.win 2).blk t).view.emb y)
  rw [outBuf_apply, mat_entry mI c hfin t]
  have h0 : (y 0).val = 0 := by have h : (y 0).val < 1 := (y 0).isLt; omega
  have e0 : ((((cfg0.win 2).blk t).view.emb y) 0).val = t.val := by
    show win0_2.index t (0 : Fin 3) * 1 + 1 * (y 0).val = t.val; rw [(index2 t).1, h0]; omega
  have e1 : ((((cfg0.win 2).blk t).view.emb y) 1).val = (y 1).val := by
    show win0_2.index t (1 : Fin 3) * 16 + 1 * (y 1).val = (y 1).val; rw [(index2 t).2.1]; omega
  have e2 : ((((cfg0.win 2).blk t).view.emb y) 2).val = (y 2).val := by
    show win0_2.index t (2 : Fin 3) * 16384 + 1 * (y 2).val = (y 2).val; rw [(index2 t).2.2]; omega
  unfold G18
  congr 1 <;> apply Fin.ext
  · exact e0.symm
  · exact e1.symm
  · show (y 2).val / 128 = ((((cfg0.win 2).blk t).view.emb y) 2).val / 128; rw [e2]
  · show (y 2).val % 128 = ((((cfg0.win 2).blk t).view.emb y) 2).val % 128; rw [e2]

/-- An index of the array is in point `t`'s block iff each coordinate is in the block's range on its axis. -/
theorem mem_blk (t : Fin cfg0.N) (i : S256x16x16384.Idx) :
    i ∈ ((cfg0.win 2).blk t).view.set ↔ ∀ a : Fin 3, win0_2.index t a * S1x16x16384.size a ≤ (i a).val ∧ (i a).val < win0_2.index t a * S1x16x16384.size a + S1x16x16384.size a := by
  show i ∈ ((View.whole main_v18).slice (win0_2.rect t)).set ↔ _
  rw [View.set_slice_whole, Rect.mem_set_unit]
  exact Iff.rfl

/-- The region's array ends holding the looked-up sum: batch b is point b's block. -/
theorem final (c : Dev nD) (hfin : ∀ i, ∃ r : ℝ, tabOf mI c i = (r : EReal)) :
    (dats mI 0 c).arrAt 2 cfg0.N = G18 (xyzOf mI c) (tabOf mI c) :=
  (dats mI 0 c).arrAt_eq_of_cover 2 (G18 (xyzOf mI c) (tabOf mI c)) (fun t _ => flushed_eq mI c hfin t) fun i => by
    have hi0 : (i 0).val < 256 := (i 0).isLt
    have hi1 : (i 1).val < 16 := (i 1).isLt
    have hi2 : (i 2).val < 16384 := (i 2).isLt
    have hN : cfg0.N = 256 := N_0
    refine ⟨⟨(i 0).val, by omega⟩, flush0_2 _, ?_⟩
    rw [mem_blk]
    intro a
    match a with
    | ⟨0, _⟩ => show win0_2.index _ (0 : Fin 3) * 1 ≤ (i 0).val ∧ (i 0).val < win0_2.index _ (0 : Fin 3) * 1 + 1; rw [(index2 _).1]; show (i 0).val * 1 ≤ (i 0).val ∧ (i 0).val < (i 0).val * 1 + 1; omega
    | ⟨1, _⟩ => show win0_2.index _ (1 : Fin 3) * 16 ≤ (i 1).val ∧ (i 1).val < win0_2.index _ (1 : Fin 3) * 16 + 16; rw [(index2 _).2.1]; omega
    | ⟨2, _⟩ => show win0_2.index _ (2 : Fin 3) * 16384 ≤ (i 2).val ∧ (i 2).val < win0_2.index _ (2 : Fin 3) * 16384 + 16384; rw [(index2 _).2.2]; omega

/-! ## The closing reshape and the run -/

/-- The result buffer after the closing reshape of the region's array is the looked-up sum: position n = 128·p + q of
    the region's last axis becomes (p, q). -/
theorem tail_v19 (c : Dev nD) (hfin : ∀ i, ∃ r : ℝ, tabOf mI c i = (r : EReal)) :
    (Pipeline.afterTail₀ cfgs (dats mI) 0 (V0 mI) [hostOps1] c main_v19 : S256x16x128x128.Idx → EReal) = Cert.Lookup.G (xyzOf mI c) (tabOf mI c) := by
  have hA : Pipeline.withArrays (cfgs 0).spec c (V0 mI c) (fun w => (dats mI 0 c).arrAt w (cfgs 0).N) (Proc.devRef .tc main_v18)
      = G18 (xyzOf mI c) (tabOf mI c) :=
    (Pipeline.withArrays_arr spec0 launch0.win.arr_inj c _ _ 2).trans (final mI c hfin)
  unfold Pipeline.afterTail₀
  show StableHlo.after hostOps1 _ (Proc.devRef .tc main_v19) = _
  after_results
  funext i
  show shapeCast S256x16x128x128 (Pipeline.withArrays (cfgs 0).spec c (V0 mI c) (fun w => (dats mI 0 c).arrAt w (cfgs 0).N) (Proc.devRef .tc main_v18))
      shapeCasts_S256x16x16384_S256x16x128x128 i = _
  rw [hA]
  obtain ⟨b, h, p, q, rfl⟩ : ∃ (b : Fin 256) (h : Fin 16) (p q : Fin 128), i = ix4 b h p q := ⟨i 0, i 1, i 2, i 3, eq_ix4 i⟩
  have hp := p.isLt
  have hq := q.isLt
  rw [shapeCast_apply _ _ (ix4 b h p q) (ix3 b h (⟨128 * p.val + q.val, by omega⟩ : Fin 16384)) (by
    rw [Shape.rowMajor_val_three, Shape.rowMajor_val_four]
    show (b.val * 16 + h.val) * 16384 + (128 * p.val + q.val) = ((b.val * 16 + h.val) * 128 + p.val) * 128 + q.val
    omega)]
  rw [Cert.Lookup.G_apply]
  unfold G18
  refine congr (congr (congr (congrArg _ (Fin.ext rfl)) (Fin.ext rfl)) (Fin.ext ?_)) (Fin.ext ?_)
  · show (128 * p.val + q.val) / 128 = p.val; omega
  · show (128 * p.val + q.val) % 128 = q.val; omega

/-- Every weakly fair execution of the idealized kernel program terminates with its result at the looked-up sum of the
    launched arguments and both arguments unchanged, when every launched table entry is real. -/
theorem run_value (hfin : ∀ c i, ∃ r : ℝ, tabOf mI c i = (r : EReal)) :
    θ_run defs (onTc (τ := τ) (main (F := Ideal))) ⟨mI, fun _ => 0, ρ⟩ (fun r => ∀ c : Dev nD,
      r.2.mem ((c.tc : Thread nD τ).loc main_v19) = Cert.Lookup.G (xyzOf mI c) (tabOf mI c)
      ∧ r.2.mem ((c.tc : Thread nD τ).loc main_arg0) = mI ((c.tc : Thread nD τ).loc main_arg0)
      ∧ r.2.mem ((c.tc : Thread nD τ).loc main_arg1) = mI ((c.tc : Thread nD τ).loc main_arg1)) :=
  (θ_run defs _ _).mono (fun _ h c =>
    ⟨((h c).2 main_v19 (Pipeline.mem_restRefs_of main_v19 (by decide) (by decide))).trans (tail_v19 mI c (hfin c)),
     ((h c).2 main_arg0 (Pipeline.mem_restRefs_of main_arg0 (by decide) (by decide))).trans (W_main_arg0 mI (dats mI) c),
     ((h c).2 main_arg1 (Pipeline.mem_restRefs_of main_arg1 (by decide) (by decide))).trans (W_main_arg1 mI (dats mI) c)⟩)
    (run_main mI ρ)

end Cert.KernelIdeal.Frm

end
-- ==== Proof.RefSide.lean ====
/-
  The reference program's result is the looked-up sum. Its indices 205·a + shift x lie in [0, 614], so the test for
  a negative index picks the index itself and the gather reads exactly that row; the sum over the axis of length
  three, started from zero, is the sum of the three rows' entries; the closing transposition moves the head axis
  into second place.
-/
import proofs.«419546_j9010841387714_3_alg».proof.Proof.Lookup
import proofs.«419546_j9010841387714_3_alg».proof.Proof.Gen.ReferenceIdeal.Read

noncomputable section

namespace Cert.ReferenceIdeal.Bridge

open Idealize.ShloMosaic Idealize.ShloMosaic.ValueIdx Cert.ReferenceIdeal

/-- The index word of axis a for the coordinate word x, shift x + 205·a, does not wrap: as a number it is
    205·a + shift x. -/
private theorem idxWord_toNat (x : BitVec 32) (a : Fin 3) :
    (IntOp.addi (Cert.Lookup.shift x) (IntOp.muli (BitVec.ofNat 32 a.val) 205#32)).toNat
      = 205 * a.val + (Cert.Lookup.shift x).toNat := by
  have hs := Cert.Lookup.shift_le x
  have ha := a.isLt
  unfold IntOp.addi IntOp.muli
  rw [BitVec.toNat_add, BitVec.toNat_mul, BitVec.toNat_ofNat]
  have h205 : (205#32 : BitVec 32).toNat = 205 := by decide
  rw [h205]
  omega

/-- The gather read at (b, p, q, a, h): the table's row is the start index at (b, p, q, a), read signed and clamped
    to [0, 614] (the first table axis is collapsed and start-indexed, slice size one); its column is h (the second
    table axis is the one offset axis, read whole). -/
private theorem gather_apply (tab : FVec Ideal S615x16 .f32) (idx : IVec S256x128x128x3x1 32)
    (b : Fin 256) (p q : Fin 128) (a : Fin 3) (h : Fin 16) :
    Host.gather gather_S615x16_S256x128x128x3x1_S256x128x128x3x16_4_0_n_n_0_4_116 tab idx (ix5 b p q a h)
      = tab (ix2 ⟨min (idx (ix5 b p q a (0 : Fin 1))).toInt.toNat 614, by omega⟩ h) := by
  unfold Host.gather
  congr 1
  funext ax
  refine Fin.ext ?_
  match ax with
  | ⟨0, _⟩ =>
    show gather_S615x16_S256x128x128x3x1_S256x128x128x3x16_4_0_n_n_0_4_116.start (ix5 b p q a h) idx 0 + gather_S615x16_S256x128x128x3x1_S256x128x128x3x16_4_0_n_n_0_4_116.batchCoord (ix5 b p q a h) 0 + gather_S615x16_S256x128x128x3x1_S256x128x128x3x16_4_0_n_n_0_4_116.offCoord (ix5 b p q a h) 0 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ gather_S615x16_S256x128x128x3x1_S256x128x128x3x16_4_0_n_n_0_4_116.startIndexMap from List.mem_singleton.mpr rfl)]
    have hsi : gather_S615x16_S256x128x128x3x1_S256x128x128x3x16_4_0_n_n_0_4_116.siIdx (ix5 b p q a h) ⟨List.idxOf (0 : Fin 2) gather_S615x16_S256x128x128x3x1_S256x128x128x3x16_4_0_n_n_0_4_116.startIndexMap,
        List.idxOf_lt_length_iff.2 (List.mem_singleton.mpr rfl)⟩ = ix5 b p q a (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    rw [hsi]
    rfl
  | ⟨1, _⟩ =>
    show gather_S615x16_S256x128x128x3x1_S256x128x128x3x16_4_0_n_n_0_4_116.start (ix5 b p q a h) idx 1 + gather_S615x16_S256x128x128x3x1_S256x128x128x3x16_4_0_n_n_0_4_116.batchCoord (ix5 b p q a h) 1 + gather_S615x16_S256x128x128x3x1_S256x128x128x3x16_4_0_n_n_0_4_116.offCoord (ix5 b p q a h) 1 = h.val
    rw [GatherDims.batchCoord_eq_zero _ _ _ List.not_mem_nil]
    unfold GatherDims.start
    rw [dif_neg (show (1 : Fin 2) ∉ gather_S615x16_S256x128x128x3x1_S256x128x128x3x16_4_0_n_n_0_4_116.startIndexMap from by decide)]
    simp only [Nat.zero_add, Nat.add_zero]
    unfold GatherDims.offCoord
    rw [dif_pos (show (1 : Fin 2) ∈ gather_S615x16_S256x128x128x3x1_S256x128x128x3x16_4_0_n_n_0_4_116.sKept from by decide)]
    rfl

/-- The index word is a small non-negative number, so it is not below zero as a signed word. -/
private theorem idxWord_not_neg (x : BitVec 32) (a : Fin 3) :
    IntOp.cmpi .slt (IntOp.addi (Cert.Lookup.shift x) (IntOp.muli (BitVec.ofNat 32 a.val) 205#32)) 0#32 = 0#1 := by
  have hn := idxWord_toNat x a
  have hs := Cert.Lookup.shift_le x
  have ha := a.isLt
  generalize IntOp.addi (Cert.Lookup.shift x) (IntOp.muli (BitVec.ofNat 32 a.val) 205#32) = w at hn
  have hf : w.slt 0#32 = false := by
    rw [Bool.eq_false_iff, ne_eq, BitVec.slt_iff_toInt_lt]
    have h0 : (0#32 : BitVec 32).toInt = 0 := by decide
    rw [h0]
    have := BitVec.toInt_eq_toNat_cond w
    split at this <;> omega
  show BitVec.ofBool (w.slt 0#32) = 0#1
  rw [hf]
  rfl

/-- Read as a signed number and clamped to the table's rows, the index word is the row itself. -/
private theorem idxWord_row (x : BitVec 32) (a : Fin 3) :
    min (IntOp.addi (Cert.Lookup.shift x) (IntOp.muli (BitVec.ofNat 32 a.val) 205#32)).toInt.toNat 614
      = 205 * a.val + (Cert.Lookup.shift x).toNat := by
  have hn := idxWord_toNat x a
  have hs := Cert.Lookup.shift_le x
  have ha := a.isLt
  generalize IntOp.addi (Cert.Lookup.shift x) (IntOp.muli (BitVec.ofNat 32 a.val) 205#32) = w at hn
  have := BitVec.toInt_eq_toNat_cond w
  split at this <;> omega

/-- The start-index array at (b, p, q, a): the index word of axis a for the coordinate word there. -/
private theorem startIdx_apply (xyz : IVec S256x128x128x3 32) (b : Fin 256) (p q : Fin 128) (a : Fin 3) :
    Read.val_main_v14 (F := Ideal) xyz (ix5 b p q a (0 : Fin 1))
      = IntOp.addi (Cert.Lookup.shift (xyz (ix4 b p q a))) (IntOp.muli (BitVec.ofNat 32 a.val) 205#32) := by
  have h8 : Read.val_main_v8 (F := Ideal) xyz (ix4 b p q a)
      = IntOp.addi (Cert.Lookup.shift (xyz (ix4 b p q a))) (IntOp.muli (BitVec.ofNat 32 a.val) 205#32) := by
    rw [Read.val_main_v8_apply, Read.val_main_v5_apply, Read.val_main_v3_apply, Read.val_main_call0_v4_apply,
      Read.val_main_call0_v3_apply, Read.val_main_c_1_apply, Read.val_main_call0_v2_apply,
      Read.val_main_call0_v1_apply, Read.val_main_call0_v0_apply, Read.val_main_c_0_apply,
      Read.val_main_v4_apply, Read.val_main_c_2_apply, Read.val_main_v7_apply, Read.val_main_v6_apply,
      Read.val_main_v2_apply, Read.val_main_v0_apply, Read.val_main_v1_apply, Read.val_main_c_apply]
    rfl
  have hi : Read.idx_main_v14 (ix5 b p q a (0 : Fin 1)) = ix4 b p q a := by
    funext c
    match c with
    | ⟨0, _⟩ => rfl
    | ⟨1, _⟩ => rfl
    | ⟨2, _⟩ => rfl
    | ⟨3, _⟩ => rfl
  rw [Read.val_main_v14_apply, hi, Read.val_main_v13_apply, Read.val_main_v10_apply, Read.val_main_v9_apply,
    Read.val_main_c_3_apply, h8, idxWord_not_neg, select_zero]

/-- The reference's last stage, as a function of the two arguments, is the looked-up sum, index by index. -/
theorem ref_eq (xyz : IVec S256x128x128x3 32) (tab : FVec Ideal S615x16 .f32) :
    Read.val_main_v17 (F := Ideal) xyz tab = Cert.Lookup.G xyz tab := by
  funext i
  obtain ⟨b, h, p, q, rfl⟩ : ∃ b h p q, i = ix4 b h p q := ⟨i 0, i 1, i 2, i 3, eq_ix4 i⟩
  rw [Cert.Lookup.G_apply, Read.val_main_v17_apply, Read.val_main_v16_apply, Read.val_main_cst_apply]
  show Ideal.ofBits .f32 0x00000000#32 + _ = _
  rw [Ideal.ofBits_zero_f32, zero_add]
  unfold Cert.Lookup.entry
  refine Finset.sum_congr rfl fun a _ => ?_
  have hidx : Read.idx_main_v16 (Read.idx_main_v17 (ix4 b h p q)) a = ix5 b p q a h := by
    funext c
    match c with
    | ⟨0, _⟩ => rfl
    | ⟨1, _⟩ => rfl
    | ⟨2, _⟩ => rfl
    | ⟨3, _⟩ => rfl
    | ⟨4, _⟩ => rfl
  rw [hidx]
  unfold Read.val_main_v15
  rw [gather_apply]
  refine congrArg tab (congrArg (fun r => ix2 r h) (Fin.ext ?_))
  show min (Read.val_main_v14 (F := Ideal) xyz (ix5 b p q a (0 : Fin 1))).toInt.toNat 614 = _
  rw [startIdx_apply, idxWord_row]
  rfl

end Cert.ReferenceIdeal.Bridge

end
-- ==== Proof.Finite.lean ====
/-
  The precondition read at the table: the conjunction over all 615 × 16 entries of |t| < +∞ being true makes every
  entry a real number.
-/
import proofs.«419546_j9010841387714_3_alg».proof.Pre_finite_inputs
import proofs.«419546_j9010841387714_3_alg».proof.Proof.Gen.Pre_finite_inputs
import Idealize.ShloMosaic.PureOps.Ideal
import Idealize.ShloMosaic.Lib.ReduceAll

noncomputable section

namespace Cert.Finite

open Idealize.ShloMosaic Cert.Pre_finite_inputs

/-- The f32 word with all exponent bits set and an empty mantissa denotes +∞. -/
private theorem inf_word : Ideal.ofBits .f32 0x7F800000#32 = (⊤ : EReal) := by
  simp [Ideal.ofBits, Ideal.ieee]

/-- An extended real whose absolute value max x (-x) lies strictly below +∞ is a real number: at -∞ the negation
    is +∞, at +∞ the value itself is, and neither is below +∞. -/
private theorem real_of_abs_lt_top (x : EReal) (hx : max x (-x) < ⊤) : ∃ r : ℝ, x = (r : EReal) := by
  induction x using EReal.rec with
  | bot => simp at hx
  | coe r => exact ⟨r, rfl⟩
  | top => simp at hx

/-- A one-bit word made from a Boolean is 1 only when the Boolean is true. -/
private theorem bool_of_word_one {b : Bool} (hb : BitVec.ofBool b = 1#1) : b = true := by
  cases b
  · exact absurd hb (by decide)
  · rfl

/-- If the precondition's predicate is all ones at (xyz, tab), every table entry is real. -/
theorem real_of_pre (xyz : IVec S256x128x128x3 32) (tab : FVec Ideal S615x16 .f32)
    (h : Cert.Pre_finite_inputs.fn (F := Ideal) xyz tab = fun _ => 1#1) : ∀ i, ∃ r : ℝ, tab i = (r : EReal) := by
  intro i
  -- the predicate's single result word is 1
  have h0 := congrFun h (fun a => a.elim0)
  dsimp only [Cert.Pre_finite_inputs.fn] at h0
  -- a reduction over every axis lands in the shape without axes, which has exactly one index
  haveI : Subsingleton S_.Idx := ⟨fun a b => funext fun d => d.elim0⟩
  -- a conjunction over all entries that is 1 has a 1 at the entry i
  have hi := Host.reduce_andi_all _ _ _ _ _ h0 i
  -- that entry of the comparison is |tab i| < +∞ in the order of the extended reals
  have hlt : max (tab i) (-(tab i)) < (⊤ : EReal) := by
    have hc : Ideal.cmp .olt (max (tab i) (-(tab i))) (Ideal.ofBits .f32 0x7F800000#32) = 1#1 := hi
    rw [inf_word] at hc
    exact of_decide_eq_true (bool_of_word_one hc)
  exact real_of_abs_lt_top (tab i) hlt

end Cert.Finite

end
-- ==== Proof.lean ====
/-
  The certificate's five claims. Both kernel programs run to the end, fault nowhere and leave their argument arrays
  unchanged (the pipeline's frame run around the one kernel region, with the body's triple at every grid point); the
  reference does too (its run, with the result dropped); the idealized kernel program is the word-level one's own text
  read over the extended reals, so there is nothing to preserve; and over the extended reals, under the precondition
  that every table entry is finite, the idealized kernel's result and the reference's are both the looked-up sum
  Σ over the three axes of table[205·a + clip(x_a) + 102, h], entry by entry: the kernel's one-hot products pick exactly
  those rows out of its zero-padded slices, and the low halves it adds are differences of a finite number with itself.
-/
import proofs.«419546_j9010841387714_3_alg».proof.Defs
import proofs.«419546_j9010841387714_3_alg».proof.Proof.Gen.Kernel
import proofs.«419546_j9010841387714_3_alg».proof.Proof.Gen.KernelIdeal
import proofs.«419546_j9010841387714_3_alg».proof.Proof.Gen.ReferenceIdeal
import proofs.«419546_j9010841387714_3_alg».proof.Proof.Gen.Pre_finite_inputs
import proofs.«419546_j9010841387714_3_alg».proof.Proof.Gen.ReferenceIdeal.Run
import proofs.«419546_j9010841387714_3_alg».proof.Proof.Gen.ReferenceIdeal.Read
import proofs.«419546_j9010841387714_3_alg».proof.Proof.BitsFrame
import proofs.«419546_j9010841387714_3_alg».proof.Proof.IdealFrame
import proofs.«419546_j9010841387714_3_alg».proof.Proof.IdealValue
import proofs.«419546_j9010841387714_3_alg».proof.Proof.RefSide
import proofs.«419546_j9010841387714_3_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame (F := Bits) m ρ

theorem frame_ki : Cert.frame_KernelIdeal := fun m ρ _ => Cert.KernelIdeal.Frm.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Under the precondition both programs end with the looked-up sum of the (agreeing) arguments. -/
theorem algebraic : Cert.algebraic_KernelIdeal_ReferenceIdeal := by
  intro m ρ m' ρ' hpre hagree
  have hfin : ∀ c i, ∃ r : ℝ, Cert.KernelIdeal.Frm.tabOf m c i = (r : EReal) :=
    fun c => Cert.Finite.real_of_pre _ _ (hpre c)
  refine ⟨fun c => Cert.Lookup.G (Cert.KernelIdeal.Frm.xyzOf m c) (Cert.KernelIdeal.Frm.tabOf m c),
    Cert.KernelIdeal.Frm.run_value ρ m hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Bridge.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
